-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "one_plus_alpha" .f32 0x3F8CCCCD#32 ((147639501 / 134217728 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S10000x256 : Shape := ⟨2, ![10000, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S10000x256 : S_.BroadcastsInDim S10000x256 (![] : Fin 0 → Fin S10000x256.rank)
  reducesTo_S10000x256_S_d0_1 : S10000x256.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x256 .f32) (main_arg1 : IVec S8192 32) (main_arg2 : FVec F S10000x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S10000x256 .f32 := Host.absf main_arg2
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .sge main_arg1 main_v9
  let main_c_3 : IVec S_ 32 := constantI S_ 32 10000#32
  let main_v11 : IVec S8192 32 := broadcastInDim S8192 ![] bcast_S_S8192 main_c_3
  let main_v12 : IVec S8192 1 := cmpi .slt main_arg1 main_v11
  let main_v13 : IVec S8192 1 := andi main_v10 main_v12
  let main_c_4 : IVec S_ 1 := constantI S_ 1 1#1
  let main_v14 : IVec S_ 1 := (fun x v => Host.reduce IntOp.andi x v reducesTo_S8192_S_d0 h_S_) main_v13 main_c_4
  let main_v15 : IVec S_ 1 := andi main_v8 main_v14
  main_v15
-- ==== Kernel.lean ====
abbrev S8192x256 : Shape := ⟨2, ![8192, 256]⟩
abbrev S8192 : Shape := ⟨1, ![8192]⟩
abbrev S10000x256 : Shape := ⟨2, ![10000, 256]⟩
abbrev S8192x1 : Shape := ⟨2, ![8192, 1]⟩
abbrev S_ : Shape := ⟨0, ![]⟩
abbrev S10000 : Shape := ⟨1, ![10000]⟩
abbrev S1x10000 : Shape := ⟨2, ![1, 10000]⟩
abbrev S8192x10000 : Shape := ⟨2, ![8192, 10000]⟩
abbrev S1024x256 : Shape := ⟨2, ![1024, 256]⟩
abbrev S1280x256 : Shape := ⟨2, ![1280, 256]⟩
abbrev S1024x1 : Shape := ⟨2, ![1024, 1]⟩
abbrev S1x1280 : Shape := ⟨2, ![1, 1280]⟩
abbrev S1024x1280 : Shape := ⟨2, ![1024, 1280]⟩
abbrev S1 : Shape := ⟨1, ![1]⟩
abbrev S1x1 : Shape := ⟨2, ![1, 1]⟩

abbrev nBuf : Space → Nat
  | .hbm => 51
  | .vmem => 14
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S10000x256, .f32⟩
  | .hbm, ⟨3, _⟩ => ⟨S8192x256, .bf16⟩
  | .hbm, ⟨4, _⟩ => ⟨S10000x256, .bf16⟩
  | .hbm, ⟨5, _⟩ => ⟨S8192x1, .i32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S10000x256, .f32⟩
  | .hbm, ⟨14, _⟩ => ⟨S_, .f32⟩
  | .hbm, ⟨15, _⟩ => ⟨S10000, .f32⟩
  | .hbm, ⟨16, _⟩ => ⟨S1x10000, .f32⟩
  | .hbm, ⟨17, _⟩ => ⟨S_, .f32⟩
  | .hbm, ⟨18, _⟩ => ⟨S1x10000, .f32⟩
  | .hbm, ⟨19, _⟩ => ⟨S1x10000, .f32⟩
  | .hbm, ⟨20, _⟩ => ⟨S8192x10000, .f32⟩
  | .hbm, ⟨21, _⟩ => ⟨S8192x10000, .f32⟩
  | .hbm, ⟨22, _⟩ => ⟨S_, .i32⟩
  | .hbm, ⟨23, _⟩ => ⟨S8192, .i32⟩
  | .hbm, ⟨24, _⟩ => ⟨S8192, .i1⟩
  | .hbm, ⟨25, _⟩ => ⟨S_, .i32⟩
  | .hbm, ⟨26, _⟩ => ⟨S8192, .i32⟩
  | .hbm, ⟨27, _⟩ => ⟨S8192, .i32⟩
  | .hbm, ⟨28, _⟩ => ⟨S8192, .i32⟩
  | .hbm, ⟨29, _⟩ => ⟨S8192x1, .i32⟩
  | .hbm, ⟨30, _⟩ => ⟨S1, .i32⟩
  | .hbm, ⟨31, _⟩ => ⟨S_, .i32⟩
  | .hbm, ⟨32, _⟩ => ⟨S8192x1, .i32⟩
  | .hbm, ⟨33, _⟩ => ⟨S8192x1, .i1⟩
  | .hbm, ⟨34, _⟩ => ⟨S1x1, .i32⟩
  | .hbm, ⟨35, _⟩ => ⟨S8192x1, .i32⟩
  | .hbm, ⟨36, _⟩ => ⟨S8192x1, .i1⟩
  | .hbm, ⟨37, _⟩ => ⟨S8192x1, .i1⟩
  | .hbm, ⟨38, _⟩ => ⟨S_, .i1⟩
  | .hbm, ⟨39, _⟩ => ⟨S8192, .i1⟩
  | .hbm, ⟨40, _⟩ => ⟨S8192x256, .f32⟩
  | .hbm, ⟨41, _⟩ => ⟨S8192x256, .i1⟩
  | .hbm, ⟨42, _⟩ => ⟨S_, .f32⟩
  | .hbm, ⟨43, _⟩ => ⟨S8192x256, .f32⟩
  | .hbm, ⟨44, _⟩ => ⟨S8192x256, .f32⟩
  | .hbm, ⟨45, _⟩ => ⟨S8192x256, .f32⟩
  | .hbm, ⟨46, _⟩ => ⟨S8192x256, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S1280x256, .bf16⟩
  | .local _ .vmem, ⟨3, _⟩ => ⟨S1280x256, .bf16⟩
  | .local _ .vmem, ⟨4, _⟩ => ⟨S1024x1, .i32⟩
  | .local _ .vmem, ⟨5, _⟩ => ⟨S1024x1, .i32⟩
  | .local _ .vmem, ⟨6, _⟩ => ⟨S1024x1, .f32⟩
  | .local _ .vmem, ⟨7, _⟩ => ⟨S1024x1, .f32⟩
  | .local _ .vmem, ⟨8, _⟩ => ⟨S1x1280, .f32⟩
  | .local _ .vmem, ⟨9, _⟩ => ⟨S1x1280, .f32⟩
  | .local _ .vmem, ⟨10, _⟩ => ⟨S1024x1280, .f32⟩
  | .local _ .vmem, ⟨11, _⟩ => ⟨S1024x1280, .f32⟩
  | .local _ .vmem, ⟨12, _⟩ => ⟨S1024x1280, .f32⟩
  | .local _ .vmem, ⟨13, _⟩ => ⟨S1024x1280, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_cst_3 : Ref sig .tc := ⟨.hbm, 47, rfl⟩
abbrev main_v17 : Ref sig .tc := ⟨.hbm, 48, rfl⟩
abbrev main_cst_4 : Ref sig .tc := ⟨.hbm, 49, rfl⟩
abbrev main_v18 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bitsLt_bf16_f32 : FTy.bits .bf16 < FTy.bits .f32
  shapeCasts_S8192_S8192x1 : S8192.ShapeCasts S8192x1
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  reducesTo_S10000x256_S10000_d1 : S10000x256.ReducesTo [1] S10000
  bcast_S10000_S1x10000_1 : S10000.BroadcastsInDim S1x10000 (![1] : Fin 1 → Fin S1x10000.rank)
  bcast_S_S1x10000 : S_.BroadcastsInDim S1x10000 (![] : Fin 0 → Fin S1x10000.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1280x256_S1280x256_0_0 : ∀ a, (![0, 0] : Fin 2 → Nat) a + S1280x256.size a ≤ S1280x256.size a
  h_S1280x256 : 0 < S1280x256.numel
  shapeCasts_S1280x256_S1280x256 : S1280x256.ShapeCasts S1280x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1024x1_S1024x1280 : S1024x1.Broadcasts S1024x1280
  broadcasts_S1x1280_S1024x1280 : S1x1280.Broadcasts S1024x1280
  iota_S1x1280_d1_w32 : S1x1280.Iotas .tc 32 [1]
  inb_S1024x1280_S1024x1280_0_0 : ∀ a, (![0, 0] : Fin 2 → Nat) a + S1024x1280.size a ≤ S1024x1280.size a
  h_S1024x1280 : 0 < S1024x1280.numel
  bcast_S_S8192 : S_.BroadcastsInDim S8192 (![] : Fin 0 → Fin S8192.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  bcast_S8192_S8192x256_0 : S8192.BroadcastsInDim S8192x256 (![0] : Fin 1 → Fin S8192x256.rank)
  bcast_S_S8192x256 : S_.BroadcastsInDim S8192x256 (![] : Fin 0 → Fin S8192x256.rank)
  reducesTo_S8192x256_S_d0_1 : S8192x256.ReducesTo [0, 1] S_
  dot_S1024x256_S1280x256_S1024x1280_1_1_0_0_n_n_wf : DotDims.WF S1024x256 S1280x256 S1024x1280 [1] [1] [0] [0] [] []
  gather_S10000x256_S8192x1_S8192x256_1_0_n_n_0_1_1256_wf : GatherDims.WF S10000x256 S8192x1 S8192x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1280x256.size a < S10000x256.size a
  hwx0_1 : ∀ i : grid0.Coords, EltTy.bits .bf16 = 32 ∨ (Rect.unit (s := S10000x256) (fun a => cc0_transform_1 i a * S1280x256.size a) (fun a => (Pipeline.Clip.of (cc0_transform_1 i a) (S1280x256.size a) (S10000x256.size a)).extent (S1280x256.size a)) fun a => Pipeline.Clip.inb (Pipeline.Clip.ok_of (hstart0_1 i a))).WholeWords (EltTy.packing .bf16)
  hwxs0_1 : ∀ i : grid0.Coords, EltTy.bits .bf16 = 32 ∨ (Rect.unit (s := S1280x256) (fun _ => 0) (fun a => (Pipeline.Clip.of (cc0_transform_1 i a) (S1280x256.size a) (S10000x256.size a)).extent (S1280x256.size a)) fun a => (Nat.zero_add _).trans_le (Pipeline.Clip.extent_le (Pipeline.Clip.ok_of (hstart0_1 i a)))).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1x1280.size a < S1x10000.size a
  hwx0_4 : ∀ i : grid0.Coords, EltTy.bits .f32 = 32 ∨ (Rect.unit (s := S1x10000) (fun a => cc0_transform_4 i a * S1x1280.size a) (fun a => (Pipeline.Clip.of (cc0_transform_4 i a) (S1x1280.size a) (S1x10000.size a)).extent (S1x1280.size a)) fun a => Pipeline.Clip.inb (Pipeline.Clip.ok_of (hstart0_4 i a))).WholeWords (EltTy.packing .f32)
  hwxs0_4 : ∀ i : grid0.Coords, EltTy.bits .f32 = 32 ∨ (Rect.unit (s := S1x1280) (fun _ => 0) (fun a => (Pipeline.Clip.of (cc0_transform_4 i a) (S1x1280.size a) (S1x10000.size a)).extent (S1x1280.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S1024x1280.size a < S8192x10000.size a
  hwx0_5 : ∀ i : grid0.Coords, EltTy.bits .f32 = 32 ∨ (Rect.unit (s := S8192x10000) (fun a => cc0_transform_5 i a * S1024x1280.size a) (fun a => (Pipeline.Clip.of (cc0_transform_5 i a) (S1024x1280.size a) (S8192x10000.size a)).extent (S1024x1280.size a)) fun a => Pipeline.Clip.inb (Pipeline.Clip.ok_of (hstart0_5 i a))).WholeWords (EltTy.packing .f32)
  hwxs0_5 : ∀ i : grid0.Coords, EltTy.bits .f32 = 32 ∨ (Rect.unit (s := S1024x1280) (fun _ => 0) (fun a => (Pipeline.Clip.of (cc0_transform_5 i a) (S1024x1280.size a) (S8192x10000.size a)).extent (S1024x1280.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S1024x1280.size a < S8192x10000.size a
  hwx0_6 : ∀ i : grid0.Coords, EltTy.bits .f32 = 32 ∨ (Rect.unit (s := S8192x10000) (fun a => cc0_transform_6 i a * S1024x1280.size a) (fun a => (Pipeline.Clip.of (cc0_transform_6 i a) (S1024x1280.size a) (S8192x10000.size a)).extent (S1024x1280.size a)) fun a => Pipeline.Clip.inb (Pipeline.Clip.ok_of (hstart0_6 i a))).WholeWords (EltTy.packing .f32)
  hwxs0_6 : ∀ i : grid0.Coords, EltTy.bits .f32 = 32 ∨ (Rect.unit (s := S1024x1280) (fun _ => 0) (fun a => (Pipeline.Clip.of (cc0_transform_6 i a) (S1024x1280.size a) (S8192x10000.size a)).extent (S1024x1280.size a)) fun a => (Nat.zero_add _).trans_le (Pipeline.Clip.extent_le (Pipeline.Clip.ok_of (hstart0_6 i a)))).WholeWords (EltTy.packing .f32)

variable [Facts₀]

def dot_S1024x256_S1280x256_S1024x1280_1_1_0_0_n_n : DotDims S1024x256 S1280x256 S1024x1280 where
  lhsContracting := [1]
  rhsContracting := [1]
  lhsNonContracting := [0]
  rhsNonContracting := [0]
  lhsBatch := []
  rhsBatch := []
  wf := dot_S1024x256_S1280x256_S1024x1280_1_1_0_0_n_n_wf
def gather_S10000x256_S8192x1_S8192x256_1_0_n_n_0_1_1256 : GatherDims S10000x256 S8192x1 S8192x256 where
  offsetDims := [1]
  collapsedSliceDims := [0]
  operandBatchingDims := []
  startIndicesBatchingDims := []
  startIndexMap := [0]
  indexVectorDim := 1
  sliceSizes := ![1, 256]
  wf := gather_S10000x256_S8192x1_S8192x256_1_0_n_n_0_1_1256_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_v1) S1280x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpecClip (Memref.whole main_v12) S1x1280.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v13_0) S1024x1280.size cc0_transform_5 reads0_5 true false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_v13_1) S1024x1280.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192 : Shape := ⟨1, ![8192]⟩
abbrev S10000x256 : Shape := ⟨2, ![10000, 256]⟩
abbrev S_ : Shape := ⟨0, ![]⟩
abbrev S8192x1 : Shape := ⟨2, ![8192, 1]⟩
abbrev S10000 : Shape := ⟨1, ![10000]⟩
abbrev S1x10000 : Shape := ⟨2, ![1, 10000]⟩
abbrev S8192x10000 : Shape := ⟨2, ![8192, 10000]⟩

abbrev nBuf : Space → Nat
  | .hbm => 53
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S10000x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S10000x256, .f32⟩
  | .hbm, ⟨8, _⟩ => ⟨S_, .f32⟩
  | .hbm, ⟨9, _⟩ => ⟨S10000, .f32⟩
  | .hbm, ⟨10, _⟩ => ⟨S1x10000, .f32⟩
  | .hbm, ⟨11, _⟩ => ⟨S8192x10000, .f32⟩
  | .hbm, ⟨12, _⟩ => ⟨S8192x10000, .f32⟩
  | .hbm, ⟨13, _⟩ => ⟨S8192x10000, .f32⟩
  | .hbm, ⟨14, _⟩ => ⟨S8192x10000, .f32⟩
  | .hbm, ⟨15, _⟩ => ⟨S_, .f32⟩
  | .hbm, ⟨16, _⟩ => ⟨S8192x10000, .f32⟩
  | .hbm, ⟨17, _⟩ => ⟨S8192x10000, .f32⟩
  | .hbm, ⟨18, _⟩ => ⟨S8192x10000, .f32⟩
  | .hbm, ⟨19, _⟩ => ⟨S8192x1, .i32⟩
  | .hbm, ⟨20, _⟩ => ⟨S1x10000, .i32⟩
  | .hbm, ⟨21, _⟩ => ⟨S8192x10000, .i32⟩
  | .hbm, ⟨22, _⟩ => ⟨S8192x10000, .i32⟩
  | .hbm, ⟨23, _⟩ => ⟨S8192x10000, .i1⟩
  | .hbm, ⟨24, _⟩ => ⟨S8192x10000, .f32⟩
  | .hbm, ⟨25, _⟩ => ⟨S_, .f32⟩
  | .hbm, ⟨26, _⟩ => ⟨S8192x10000, .f32⟩
  | .hbm, ⟨27, _⟩ => ⟨S8192x10000, .f32⟩
  | .hbm, ⟨28, _⟩ => ⟨S_, .f32⟩
  | .hbm, ⟨29, _⟩ => ⟨S8192x10000, .f32⟩
  | .hbm, ⟨30, _⟩ => ⟨S8192x10000, .f32⟩
  | .hbm, ⟨31, _⟩ => ⟨S8192x10000, .f32⟩
  | .hbm, ⟨32, _⟩ => ⟨S_, .f32⟩
  | .hbm, ⟨33, _⟩ => ⟨S8192x10000, .f32⟩
  | .hbm, ⟨34, _⟩ => ⟨S8192x10000, .f32⟩
  | .hbm, ⟨35, _⟩ => ⟨S_, .f32⟩
  | .hbm, ⟨36, _⟩ => ⟨S8192x10000, .f32⟩
  | .hbm, ⟨37, _⟩ => ⟨S8192x10000, .f32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S8192, .i32⟩
  | .hbm, ⟨45, _⟩ => ⟨S8192x1, .i32⟩
  | .hbm, ⟨46, _⟩ => ⟨S8192x256, .f32⟩
  | .hbm, ⟨47, _⟩ => ⟨S8192x256, .f32⟩
  | .hbm, ⟨48, _⟩ => ⟨S8192x256, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_c : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  reducesTo_S10000x256_S10000_d1 : S10000x256.ReducesTo [1] S10000
  bcast_S10000_S1x10000_1 : S10000.BroadcastsInDim S1x10000 (![1] : Fin 1 → Fin S1x10000.rank)
  bcast_S8192x1_S8192x10000_0_1 : S8192x1.BroadcastsInDim S8192x10000 (![0, 1] : Fin 2 → Fin S8192x10000.rank)
  bcast_S1x10000_S8192x10000_0_1 : S1x10000.BroadcastsInDim S8192x10000 (![0, 1] : Fin 2 → Fin S8192x10000.rank)
  bcast_S_S8192x10000 : S_.BroadcastsInDim S8192x10000 (![] : Fin 0 → Fin S8192x10000.rank)
  bcast_S_S8192 : S_.BroadcastsInDim S8192 (![] : Fin 0 → Fin S8192.rank)
  reducesTo_S8192x256_S_d0_1 : S8192x256.ReducesTo [0, 1] S_
  dot_S8192x256_S10000x256_S8192x10000_1_1_0_0_n_n_wf : DotDims.WF S8192x256 S10000x256 S8192x10000 [1] [1] [0] [0] [] []
  gather_S10000x256_S8192x1_S8192x256_1_0_n_n_0_1_1256_wf : GatherDims.WF S10000x256 S8192x1 S8192x256 [1] [0] [] [0] [] 1 ![1, 256]

variable [Facts₀]

def dot_S8192x256_S10000x256_S8192x10000_1_1_0_0_n_n : DotDims S8192x256 S10000x256 S8192x10000 where
  lhsContracting := [1]
  rhsContracting := [1]
  lhsNonContracting := [0]
  rhsNonContracting := [0]
  lhsBatch := []
  rhsBatch := []
  wf := dot_S8192x256_S10000x256_S8192x10000_1_1_0_0_n_n_wf
def gather_S10000x256_S8192x1_S8192x256_1_0_n_n_0_1_1256 : GatherDims S10000x256 S8192x1 S8192x256 where
  offsetDims := [1]
  collapsedSliceDims := [0]
  operandBatchingDims := []
  startIndicesBatchingDims := []
  startIndexMap := [0]
  indexVectorDim := 1
  sliceSizes := ![1, 256]
  wf := gather_S10000x256_S8192x1_S8192x256_1_0_n_n_0_1_1256_wf

class Facts : Prop extends Facts₀ where

variable [Facts]
-- ==== Proof.Body.lean ====
/-
  The kernel body as a triple, at any float instance.

  The body reads its five input staging buffers whole (the feature block, the centre block, the
  label column, the two half-norm vectors), and stores two whole 1024 × 1280 blocks: the logits
  block and the margin block, each a pure function of what was read. Whatever the two output
  buffers held before is overwritten.
-/
import proofs.«431028_j76897094468407_3_alg».proof.Proof.Gen.KernelIdeal.Frame
import proofs.«431028_j76897094468407_3_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- The whole 1024 × 1280 rectangle of an output staging buffer. -/
abbrev rOut : Rect S1024x1280 := Rect.unit (s := S1024x1280) ![0, 0] S1024x1280.size inb_S1024x1280_S1024x1280_0_0

/-- One whole-buffer store covers the buffer. -/
theorem coverOut (p0 : Vec F S1024x1280 .f32) (y : S1024x1280.Idx) :
    ∃ pc ∈ ([⟨rOut, p0⟩] : List (View.Piece (Elt F) S1024x1280 .f32)), y ∈ pc.1.set :=
  View.cover_of_tiled [⟨rOut, p0⟩] S1024x1280.size (by rfl) y

set_option maxHeartbeats 4000000 in
/-- The body on whole staging memrefs: inputs at contents `x0 … x4`, outputs at anything; it ends with the
    inputs as they were, the logits buffer at the first payload and the margin buffer at the second. -/
theorem sound_kernel (c : Dev nD) (E : Set ℕ) (i : grid0.Coords)
    (arg2 : Memref sig .tc .vmem S1024x256 .bf16) (harg2 : arg2.IsWhole)
    (arg3 : Memref sig .tc .vmem S1280x256 .bf16) (harg3 : arg3.IsWhole)
    (arg4 : Memref sig .tc .vmem S1024x1 .i32) (harg4 : arg4.IsWhole)
    (arg5 : Memref sig .tc .vmem S1024x1 .f32) (harg5 : arg5.IsWhole)
    (arg6 : Memref sig .tc .vmem S1x1280 .f32) (harg6 : arg6.IsWhole)
    (arg7 : Memref sig .tc .vmem S1024x1280 .f32) (harg7 : arg7.IsWhole)
    (arg8 : Memref sig .tc .vmem S1024x1280 .f32) (harg8 : arg8.IsWhole)
    (x0 : Vec F S1024x256 .bf16) (x1 : Vec F S1280x256 .bf16) (x2 : Vec F S1024x1 .i32)
    (x3 : Vec F S1024x1 .f32) (x4 : Vec F S1x1280 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4
            ∗ owns (c : Thread nD τ) arg7 fullShare (k0_pay1 x0 x1 x3 x4)
            ∗ owns (c : Thread nD τ) arg8 fullShare (k0_pay2 i x0 x1 x3 x4 x2)) -∗ K ⟨⟩))
      ⊢ wp frame (wpE (defs₀ (F := F)) Variants.none c none) E
          (cc0__lgm_kernel i arg2 harg2 arg3 harg3 arg4 harg4 arg5 harg5 arg6 harg6 arg7 harg7 arg8 harg8) K := by
  simp only [cc0__lgm_kernel_eq_skeleton]; unfold cc0__lgm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  have hz : (![0, 0] : Fin 2 → Nat) = fun _ => 0 := funext fun a => by fin_cases a <;> rfl
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (coverOut _), View.canon_unit_zero hz]
    simp only [View.readAt_eq_ld, View.ld_unit_zero (S := S1024x256) hz, View.ld_unit_zero (S := S1280x256) hz,
      View.ld_unit_zero (S := S1024x1) hz, View.ld_unit_zero (S := S1x1280) hz]
  · iexists _; isplitr
    swap; · iexact H6
    ipureintro
    rw [View.read_writes_eq_canon _ _ _ (coverOut _), View.canon_unit_zero hz]
    simp only [View.readAt_eq_ld, View.ld_unit_zero (S := S1024x256) hz, View.ld_unit_zero (S := S1280x256) hz,
      View.ld_unit_zero (S := S1024x1) hz, View.ld_unit_zero (S := S1x1280) hz]

end Cert.KernelIdeal.Hand

end
-- ==== Proof.Data.lean ====
/-
  The proof data of the one pipeline, at any float instance.

  The grid is 8 × 8: point t = (i, j) works on feature rows 1024·i … 1024·i + 1023 and on centre rows
  (output columns) 1280·j … 1280·j + 1279. The centres have 10000 rows, so at j = 7 only the first 1040
  rows of the centre block, of the half-norm row, and of the two output blocks lie inside their arrays;
  the staging buffers' remaining rows hold words nothing names, and what the body computes from them is
  never written back.

  After the body at point t: each input buffer holds its block (for the two clipped inputs, filled out
  past the array's end with a zero word, which nothing reads); the logits buffer and the margin buffer
  hold the body's two payloads of those.
-/
import proofs.«431028_j76897094468407_3_alg».proof.Proof.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The centre block of point `t` as the staging buffer holds it: the rows inside the array, a zero word past its end. -/
def cblk (c : Dev nD) (t : Fin cfg0.N) : Vec F S1280x256 .bf16 :=
  win0_1.fill (grid0.coords t) (fun _ => Scalar.ofBits .bf16 0#16) (iblk m c 1 t)

/-- The centres' half-norm row of point `t`, likewise. -/
def nblk (c : Dev nD) (t : Fin cfg0.N) : Vec F S1x1280 .f32 :=
  win0_4.fill (grid0.coords t) (fun _ => Scalar.ofBits .f32 0#32) (iblk m c 4 t)

/-- What the logits buffer holds after the body at point `t`. -/
def lblk (c : Dev nD) (t : Fin cfg0.N) : Vec F S1024x1280 .f32 :=
  k0_pay1 (iblk m c 0 t) (cblk m c t) (iblk m c 3 t) (nblk m c t)

/-- What the margin buffer holds after the body at point `t`. -/
def mblk (c : Dev nD) (t : Fin cfg0.N) : Vec F S1024x1280 .f32 :=
  k0_pay2 (grid0.coords t) (iblk m c 0 t) (cblk m c t) (iblk m c 3 t) (nblk m c t) (iblk m c 2 t)

/-- The proof data of the pipeline on core `c`: the arrays as the region finds them; after the body the
    input buffers at their blocks and the two output buffers at the payloads; the class's invariant; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => cblk m c t
    | ⟨2, _⟩ => iblk m c 2 t
    | ⟨3, _⟩ => iblk m c 3 t
    | ⟨4, _⟩ => nblk m c t
    | ⟨5, _⟩ => lblk m c t
    | ⟨6, _⟩ => mblk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = cblk m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = nblk m c t := by dsimp only [dats]
theorem after0_5 (c : Dev nD) (t : Fin cfg0.N) : (dats m 0 c).after 5 t = lblk m c t := by dsimp only [dats]
theorem after0_6 (c : Dev nD) (t : Fin cfg0.N) : (dats m 0 c).after 6 t = mblk m c t := by dsimp only [dats]

/-- The uncut inputs' buffers hold their blocks at every point, fetched there or not. -/
theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The clipped inputs are fetched at every point: their buffers hold the block's rows inside the array, and `d`
    past its end. -/
theorem before0_1 (c : Dev nD) (t : Fin cfg0.N) (d) :
    (dats m 0 c).before 1 t d = win0_1.fill (grid0.coords t) d (iblk m c 1 t) := by
  rw [(dats m 0 c).before_fetched 1 t (fetch0_1 t)]
  unfold Dat.fetched Dat.blockOf iblk; rw [A_eq]
theorem before0_4 (c : Dev nD) (t : Fin cfg0.N) (d) :
    (dats m 0 c).before 4 t d = win0_4.fill (grid0.coords t) d (iblk m c 4 t) := by
  rw [(dats m 0 c).before_fetched 4 t (fetch0_4 t)]
  unfold Dat.fetched Dat.blockOf iblk; rw [A_eq]

/-- The output buffers are written back at every point: the body finds them at contents nothing names. -/
theorem before0_5 (c : Dev nD) (t : Fin cfg0.N) (d) : (dats m 0 c).before 5 t d = d :=
  (dats m 0 c).before_out_reset 5 rfl t (by
    by_cases h : t.val = 0
    · exact .inl h
    · exact .inr ⟨h, flush0_5 _⟩) d
theorem before0_6 (c : Dev nD) (t : Fin cfg0.N) (d) : (dats m 0 c).before 6 t d = d :=
  (dats m 0 c).before_out_reset 6 rfl t (by
    by_cases h : t.val = 0
    · exact .inl h
    · exact .inr ⟨h, flush0_6 _⟩) d

end Cert.KernelIdeal.Hand

end
-- ==== Proof.Spec.lean ====
/-
  The three results as functions of the argument arrays, index by index, on the extended reals.

  For a feature row `f b` and a centre row `c k` (256 entries each):
    cross  b k = ∑ d, f b d · c k d
    fsq    b   = ∑ d, f b d · f b d          csq k = ∑ d, c k d · c k d
    logits b k = cross b k + (−½)·fsq b + (−½)·csq k        ( = −½ · ‖f b − c k‖² on the reals )
    margin b k = logits b k · (1 + α)  when  label b = k,   logits b k  otherwise,
  with α the binary fraction 13421773 / 2²⁷ that the word 0x3DCCCCCD encodes, so 1 + α = 147639501 / 2²⁷.
-/
import Idealize.ShloMosaic.PureOps.Ideal
import Idealize.ShloMosaic.Lib.ValueIdx

noncomputable section

namespace Cert.Lgm

open Idealize.ShloMosaic Idealize.ShloMosaic.ValueIdx

abbrev SFeat : Shape := ⟨2, ![8192, 256]⟩
abbrev SCen : Shape := ⟨2, ![10000, 256]⟩
abbrev SLab : Shape := ⟨1, ![8192]⟩
abbrev SOut : Shape := ⟨2, ![8192, 10000]⟩

/-- The word 0xBF000000 at the exact reading: −½. -/
def negHalf : EReal := Ideal.ofBits .f32 0xBF000000#32

/-- 1 + α, α = 13421773 / 2²⁷. -/
def oneAlpha : EReal := ((147639501 / 134217728 : ℝ) : EReal)

/-- The inner product of feature row `b` with centre row `k`. -/
def cross (f : SFeat.Idx → EReal) (c : SCen.Idx → EReal) (b : Fin 8192) (k : Fin 10000) : EReal :=
  ∑ d : Fin 256, f (ix2 b d) * c (ix2 k d)

/-- The squared length of feature row `b`. -/
def fsq (f : SFeat.Idx → EReal) (b : Fin 8192) : EReal := ∑ d : Fin 256, f (ix2 b d) * f (ix2 b d)

/-- The squared length of centre row `k`. -/
def csq (c : SCen.Idx → EReal) (k : Fin 10000) : EReal := ∑ d : Fin 256, c (ix2 k d) * c (ix2 k d)

/-- One logit: the inner product less half of each squared length. -/
def logitsAt (f : SFeat.Idx → EReal) (c : SCen.Idx → EReal) (b : Fin 8192) (k : Fin 10000) : EReal :=
  cross f c b k + negHalf * fsq f b + negHalf * csq c k

/-- One margin logit: the logit, scaled by 1 + α in the column of the row's label. -/
def marginAt (f : SFeat.Idx → EReal) (l : SLab.Idx → BitVec 32) (c : SCen.Idx → EReal) (b : Fin 8192) (k : Fin 10000) : EReal :=
  if l (ix1 b) = BitVec.ofNat 32 k.val then logitsAt f c b k * oneAlpha else logitsAt f c b k

/-- The logits as one array. -/
def logits (f : SFeat.Idx → EReal) (c : SCen.Idx → EReal) : SOut.Idx → EReal :=
  fun i => logitsAt f c ⟨(i 0).val, idx2_lt0 i⟩ ⟨(i 1).val, idx2_lt1 i⟩

/-- The margin logits as one array. -/
def margin (f : SFeat.Idx → EReal) (l : SLab.Idx → BitVec 32) (c : SCen.Idx → EReal) : SOut.Idx → EReal :=
  fun i => marginAt f l c ⟨(i 0).val, idx2_lt0 i⟩ ⟨(i 1).val, idx2_lt1 i⟩

theorem logits_ix2 (f : SFeat.Idx → EReal) (c : SCen.Idx → EReal) (b : Fin 8192) (k : Fin 10000) :
    logits f c (ix2 b k) = logitsAt f c b k := rfl

theorem margin_ix2 (f : SFeat.Idx → EReal) (l : SLab.Idx → BitVec 32) (c : SCen.Idx → EReal) (b : Fin 8192) (k : Fin 10000) :
    margin f l c (ix2 b k) = marginAt f l c b k := rfl

end Cert.Lgm

end
-- ==== Proof.PayloadIdx.lean ====
/-
  The body's two payloads read at an index, on the extended reals.
-/
import proofs.«431028_j76897094468407_3_alg».proof.Proof.Gen.KernelIdeal.Skeleton
import proofs.«431028_j76897094468407_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Hand

open Cert.KernelIdeal Cert.KernelIdeal.Gen
open Idealize.ShloMosaic Idealize.ShloMosaic.ValueIdx

/-- An `[a, 1]` column broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's index at output `j` and contraction position `k`: its row is `j`'s row. -/
theorem lhs_dot_0 (j : S1024x1280.Idx) (k : dot_S1024x256_S1280x256_S1024x1280_1_1_0_0_n_n.contr.Idx) :
    (dot_S1024x256_S1280x256_S1024x1280_1_1_0_0_n_n.lhsIdx j k 0).val = (j 0).val := by
  unfold DotDims.lhsIdx
  rw [dif_neg (show ¬(0 : Fin S1024x256.rank) ∈ dot_S1024x256_S1280x256_S1024x1280_1_1_0_0_n_n.lhsBatch by decide), dif_pos (show (0 : Fin S1024x256.rank) ∈ dot_S1024x256_S1280x256_S1024x1280_1_1_0_0_n_n.lhsNonContracting by decide)]
  rfl
/-- Its column is the contraction position. -/
theorem lhs_dot_1 (j : S1024x1280.Idx) (k : dot_S1024x256_S1280x256_S1024x1280_1_1_0_0_n_n.contr.Idx) :
    (dot_S1024x256_S1280x256_S1024x1280_1_1_0_0_n_n.lhsIdx j k 1).val = (k ⟨0, by decide⟩).val :=
  dot_S1024x256_S1280x256_S1024x1280_1_1_0_0_n_n.lhsIdx_val_of_single rfl j k
/-- The right operand's index at output `j` and contraction position `k`: its row is `j`'s column. -/
theorem rhs_dot_0 (j : S1024x1280.Idx) (k : dot_S1024x256_S1280x256_S1024x1280_1_1_0_0_n_n.contr.Idx) :
    (dot_S1024x256_S1280x256_S1024x1280_1_1_0_0_n_n.rhsIdx j k 0).val = (j 1).val := by
  unfold DotDims.rhsIdx
  rw [dif_neg (show ¬(0 : Fin S1280x256.rank) ∈ dot_S1024x256_S1280x256_S1024x1280_1_1_0_0_n_n.rhsBatch by decide), dif_pos (show (0 : Fin S1280x256.rank) ∈ dot_S1024x256_S1280x256_S1024x1280_1_1_0_0_n_n.rhsNonContracting by decide)]
  rfl
/-- Its column is the contraction position. -/
theorem rhs_dot_1 (j : S1024x1280.Idx) (k : dot_S1024x256_S1280x256_S1024x1280_1_1_0_0_n_n.contr.Idx) :
    (dot_S1024x256_S1280x256_S1024x1280_1_1_0_0_n_n.rhsIdx j k 1).val = (k ⟨0, by decide⟩).val :=
  dot_S1024x256_S1280x256_S1024x1280_1_1_0_0_n_n.rhsIdx_val_of_single rfl j k

/-- The block product into the zero accumulator, at row `r` and column `q`: the inner product of row `r` of the
    left operand with row `q` of the right one. -/
theorem matmul_zero_ix2 (a : FVec Ideal S1024x256 .bf16) (b : FVec Ideal S1280x256 .bf16) (r : Fin 1024) (q : Fin 1280) :
    matmul dot_S1024x256_S1280x256_S1024x1280_1_1_0_0_n_n none a b (constant (F := Ideal) S1024x1280 .f32 0x00000000#32) (ix2 r q)
      = ∑ d : Fin 256, a (ix2 r d) * b (ix2 q d) := by
  simp only [matmul]
  rw [Ideal.matmul_constant_zero_apply, ← Equiv.sum_comp (contrEquiv1 dot_S1024x256_S1280x256_S1024x1280_1_1_0_0_n_n 256 rfl rfl).symm]
  refine Finset.sum_congr rfl fun k _ => ?_
  have hk := contrEquiv1_symm_val dot_S1024x256_S1280x256_S1024x1280_1_1_0_0_n_n 256 rfl rfl k
  have el : dot_S1024x256_S1280x256_S1024x1280_1_1_0_0_n_n.lhsIdx (ix2 r q) ((contrEquiv1 dot_S1024x256_S1280x256_S1024x1280_1_1_0_0_n_n 256 rfl rfl).symm k) = ix2 r k := funext fun ax => Fin.ext (by
    match ax with
    | ⟨0, _⟩ => exact lhs_dot_0 _ _
    | ⟨1, _⟩ => exact (lhs_dot_1 _ _).trans hk)
  have er : dot_S1024x256_S1280x256_S1024x1280_1_1_0_0_n_n.rhsIdx (ix2 r q) ((contrEquiv1 dot_S1024x256_S1280x256_S1024x1280_1_1_0_0_n_n 256 rfl rfl).symm k) = ix2 q k := funext fun ax => Fin.ext (by
    match ax with
    | ⟨0, _⟩ => exact rhs_dot_0 _ _
    | ⟨1, _⟩ => exact (rhs_dot_1 _ _).trans hk)
  rw [el, er]

/-- The logits payload at row `r`, column `q` of the block: the inner product of feature row `r` with centre row
    `q`, plus the two half-norm terms. -/
theorem pay1_apply (x0 : Vec Ideal S1024x256 .bf16) (x1 : Vec Ideal S1280x256 .bf16) (x3 : Vec Ideal S1024x1 .f32)
    (x4 : Vec Ideal S1x1280 .f32) (r : Fin 1024) (q : Fin 1280) :
    k0_pay1 (F := Ideal) x0 x1 x3 x4 (ix2 r q)
      = (∑ d : Fin 256, x0 (ix2 r d) * x1 (ix2 q d)) + x3 (ix2 r (0 : Fin 1)) + x4 (ix2 (0 : Fin 1) q) := by
  unfold k0_pay1
  rw [addf_apply, addf_apply, shapeCast_self, shapeCast_self, shapeCast_self, shapeCast_self, matmul_zero_ix2,
    broadcastTo_a1_ab_apply, broadcastTo_1b_ab_apply]

/-- An integer comparison of two vectors, at an index. -/
theorem cmpi_apply {s : Shape} {w : ℕ} (p : CmpIPredicate) (a b : IVec s w) (j : s.Idx) :
    cmpi p a b j = IntOp.cmpi p (a j) (b j) := rfl

/-- An integer sum of two vectors, at an index. -/
theorem addi_apply {s : Shape} {w : ℕ} (a b : IVec s w) (j : s.Idx) : addi a b j = IntOp.addi (a j) (b j) := rfl

/-- The equality comparison's bit is set exactly when the two words are equal. -/
theorem cmpi_eq_one_iff (x y : BitVec 32) : IntOp.cmpi .eq x y = 1 ↔ x = y := by
  show BitVec.ofBool (x == y) = 1 ↔ x = y
  by_cases h : x = y
  · subst h
    rw [beq_self_eq_true]
    exact ⟨fun _ => rfl, fun _ => rfl⟩
  · rw [beq_eq_false_iff_ne.mpr h]
    exact ⟨fun hh => absurd hh (by decide), fun hh => absurd hh h⟩

/-- A select on the equality comparison's bit is the `if` on the equality. -/
theorem select_cmpi_eq {α : Type} (x y : BitVec 32) (a b : α) :
    Scalar.select (IntOp.cmpi .eq x y) a b = if x = y then a else b := by
  unfold Scalar.select
  by_cases h : x = y
  · rw [if_pos h, if_pos ((cmpi_eq_one_iff x y).mpr h)]
  · rw [if_neg h, if_neg (fun hh => h ((cmpi_eq_one_iff x y).mp hh))]

/-- The column's number in the whole array: the lane number plus 1280 times the block's number, as a 32-bit word. -/
theorem column_word (n q : ℕ) :
    IntOp.addi (BitVec.ofNat 32 q) (Scalar.muli (BitVec.ofNat 32 n) 1280#32) = BitVec.ofNat 32 (1280 * n + q) := by
  show BitVec.ofNat 32 q + BitVec.ofNat 32 n * BitVec.ofNat 32 1280 = _
  rw [← BitVec.ofNat_mul, ← BitVec.ofNat_add]
  congr 1
  omega

/-- The named constant 1 + α at the exact reading. -/
theorem one_plus_alpha_eq :
    Named.named (F := Ideal) κ "one_plus_alpha" (φ := .f32) 0x3F8CCCCD#32 = Cert.Lgm.oneAlpha :=
  IdealRules.named_const.ideal_named_scalar _ _ _ _ rfl

/-- The margin payload at row `r`, column `q` of the block at grid point `i`: the logits payload, scaled by 1 + α
    where the row's label is the column's number in the whole array. -/
theorem pay2_apply (i : grid0.Coords) (x0 : Vec Ideal S1024x256 .bf16) (x1 : Vec Ideal S1280x256 .bf16)
    (x3 : Vec Ideal S1024x1 .f32) (x4 : Vec Ideal S1x1280 .f32) (x2 : Vec Ideal S1024x1 .i32) (r : Fin 1024) (q : Fin 1280) :
    k0_pay2 (F := Ideal) i x0 x1 x3 x4 x2 (ix2 r q)
      = if x2 (ix2 r (0 : Fin 1)) = BitVec.ofNat 32 (1280 * (i 1).val + q.val)
        then k0_pay1 (F := Ideal) x0 x1 x3 x4 (ix2 r q) * Cert.Lgm.oneAlpha
        else k0_pay1 (F := Ideal) x0 x1 x3 x4 (ix2 r q) := by
  unfold k0_pay2
  generalize k0_pay1 (F := Ideal) x0 x1 x3 x4 = P
  rw [select_apply, cmpi_apply, broadcastTo_a1_ab_apply, shapeCast_self, broadcastTo_1b_ab_apply, addi_apply,
    broadcast_apply, iota_single_apply, mulf_apply, broadcast_apply, select_cmpi_eq, column_word, one_plus_alpha_eq]

end Cert.KernelIdeal.Hand

end
-- ==== Proof.Run.lean ====
/-
  The body obligation and the run, on the extended reals.

  At point t the body is handed the five input buffers — the two clipped ones holding their block's rows
  inside the array and ANY words past its end — and leaves the two output buffers at its payloads of those.
  The write-back moves only the columns inside the array, and a column of either payload depends only on
  the same row of the centre block and the same entry of the half-norm row: so on the moved part the
  payloads do not depend on the words past the end, and there they are the proof data's blocks.
-/
import proofs.«431028_j76897094468407_3_alg».proof.Proof.Data
import proofs.«431028_j76897094468407_3_alg».proof.Proof.PayloadIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The moved part does not see the words past the array's end -/

/-- Two fillings of one block agree wherever the transfer moves. -/
theorem fill_eq_of_moved {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-- The clipped sizes of the centre block, the half-norm row and the two output blocks agree at every point, and
    the unclipped axes are whole. -/
theorem xsize_facts : ∀ t : Fin cfg0.N,
    win0_1.xsize (grid0.coords t) 0 = win0_5.xsize (grid0.coords t) 1 ∧ win0_1.xsize (grid0.coords t) 1 = 256
    ∧ win0_4.xsize (grid0.coords t) 1 = win0_5.xsize (grid0.coords t) 1 ∧ win0_4.xsize (grid0.coords t) 0 = 1
    ∧ win0_6.xsize (grid0.coords t) 1 = win0_5.xsize (grid0.coords t) 1 :=
  (by decide +kernel : ∀ t : Fin grid0.N,
    win0_1.xsize (grid0.coords t) 0 = win0_5.xsize (grid0.coords t) 1 ∧ win0_1.xsize (grid0.coords t) 1 = 256
    ∧ win0_4.xsize (grid0.coords t) 1 = win0_5.xsize (grid0.coords t) 1 ∧ win0_4.xsize (grid0.coords t) 0 = 1
    ∧ win0_6.xsize (grid0.coords t) 1 = win0_5.xsize (grid0.coords t) 1)

/-- Row `q` of the centre block is moved when column `q` of the output block is. -/
theorem moved1 (t : Fin cfg0.N) (q : Fin 1280) (d : Fin 256) (hq : q.val < win0_5.xsize (grid0.coords t) 1) :
    win0_1.moved (grid0.coords t) (ix2 q d) = true := by
  rw [Window.moved_iff]
  obtain ⟨h0, h1, -, -, -⟩ := xsize_facts t
  intro a
  match a with
  | ⟨0, _⟩ => show q.val < win0_1.xsize (grid0.coords t) 0; rw [h0]; exact hq
  | ⟨1, _⟩ => show d.val < win0_1.xsize (grid0.coords t) 1; rw [h1]; exact d.isLt

/-- Entry `q` of the half-norm row is moved when column `q` of the output block is. -/
theorem moved4 (t : Fin cfg0.N) (q : Fin 1280) (hq : q.val < win0_5.xsize (grid0.coords t) 1) :
    win0_4.moved (grid0.coords t) (ix2 (0 : Fin 1) q) = true := by
  rw [Window.moved_iff]
  obtain ⟨-, -, h4, h40, -⟩ := xsize_facts t
  intro a
  match a with
  | ⟨0, _⟩ => show (0 : Fin 1).val < win0_4.xsize (grid0.coords t) 0; rw [h40]; exact Nat.zero_lt_one
  | ⟨1, _⟩ => show q.val < win0_4.xsize (grid0.coords t) 1; rw [h4]; exact hq

/-- The logits payload at a moved column does not depend on what fills the clipped inputs past the array's end. -/
theorem pay1_fill_indep (t : Fin cfg0.N) (x0 : Vec Ideal S1024x256 .bf16) (x3 : Vec Ideal S1024x1 .f32)
    (b1 : (win0_1.xblock (grid0.coords t)).Idx → EReal) (b4 : (win0_4.xblock (grid0.coords t)).Idx → EReal)
    (d1 d1' : S1280x256.Idx → EReal) (d4 d4' : S1x1280.Idx → EReal) (r : Fin 1024) (q : Fin 1280)
    (hq : q.val < win0_5.xsize (grid0.coords t) 1) :
    k0_pay1 (F := Ideal) x0 (win0_1.fill (grid0.coords t) d1 b1) x3 (win0_4.fill (grid0.coords t) d4 b4) (ix2 r q)
      = k0_pay1 (F := Ideal) x0 (win0_1.fill (grid0.coords t) d1' b1) x3 (win0_4.fill (grid0.coords t) d4' b4) (ix2 r q) := by
  rw [pay1_apply, pay1_apply]
  rw [fill_eq_of_moved win0_4 (grid0.coords t) d4 d4' b4 (ix2 (0 : Fin 1) q) (moved4 t q hq)]
  refine congrArg (· + _) (congrArg (· + _) (Finset.sum_congr rfl fun d _ => ?_))
  rw [fill_eq_of_moved win0_1 (grid0.coords t) d1 d1' b1 (ix2 q d) (moved1 t q d hq)]

/-- The margin payload likewise. -/
theorem pay2_fill_indep (t : Fin cfg0.N) (x0 : Vec Ideal S1024x256 .bf16) (x3 : Vec Ideal S1024x1 .f32) (x2 : Vec Ideal S1024x1 .i32)
    (b1 : (win0_1.xblock (grid0.coords t)).Idx → EReal) (b4 : (win0_4.xblock (grid0.coords t)).Idx → EReal)
    (d1 d1' : S1280x256.Idx → EReal) (d4 d4' : S1x1280.Idx → EReal) (r : Fin 1024) (q : Fin 1280)
    (hq : q.val < win0_5.xsize (grid0.coords t) 1) :
    k0_pay2 (F := Ideal) (grid0.coords t) x0 (win0_1.fill (grid0.coords t) d1 b1) x3 (win0_4.fill (grid0.coords t) d4 b4) x2 (ix2 r q)
      = k0_pay2 (F := Ideal) (grid0.coords t) x0 (win0_1.fill (grid0.coords t) d1' b1) x3 (win0_4.fill (grid0.coords t) d4' b4) x2 (ix2 r q) := by
  rw [pay2_apply, pay2_apply, pay1_fill_indep t x0 x3 b1 b4 d1 d1' d4 d4' r q hq]

/-- On the part the write-back moves, the logits buffer the body leaves is the proof data's block. -/
theorem cut5_eq (c : Dev nD) (t : Fin cfg0.N) (d1 : S1280x256.Idx → EReal) (d4 : S1x1280.Idx → EReal) :
    win0_5.cut (grid0.coords t) (k0_pay1 (F := Ideal) (iblk m c 0 t) (win0_1.fill (grid0.coords t) d1 (iblk m c 1 t)) (iblk m c 3 t)
        (win0_4.fill (grid0.coords t) d4 (iblk m c 4 t)))
      = win0_5.cut (grid0.coords t) (lblk m c t) := by
  funext j
  show k0_pay1 (F := Ideal) _ _ _ _ (win0_5.xinj (grid0.coords t) j) = lblk m c t (win0_5.xinj (grid0.coords t) j)
  have hq : (j 1).val < win0_5.xsize (grid0.coords t) 1 := (j 1).isLt
  have hr : (j 0).val < 1024 := Nat.lt_of_lt_of_le (j 0).isLt (win0_5.xsize_le (grid0.coords t) 0)
  have hq' : (j 1).val < 1280 := Nat.lt_of_lt_of_le (j 1).isLt (win0_5.xsize_le (grid0.coords t) 1)
  have e : win0_5.xinj (grid0.coords t) j = ix2 (⟨(j 0).val, hr⟩ : Fin 1024) (⟨(j 1).val, hq'⟩ : Fin 1280) :=
    funext fun a => Fin.ext (by match a with | ⟨0, _⟩ => rfl | ⟨1, _⟩ => rfl)
  rw [e]
  unfold lblk cblk nblk
  exact pay1_fill_indep t _ _ _ _ _ _ _ _ _ _ hq

/-- The margin buffer likewise. -/
theorem cut6_eq (c : Dev nD) (t : Fin cfg0.N) (d1 : S1280x256.Idx → EReal) (d4 : S1x1280.Idx → EReal) :
    win0_6.cut (grid0.coords t) (k0_pay2 (F := Ideal) (grid0.coords t) (iblk m c 0 t) (win0_1.fill (grid0.coords t) d1 (iblk m c 1 t)) (iblk m c 3 t)
        (win0_4.fill (grid0.coords t) d4 (iblk m c 4 t)) (iblk m c 2 t))
      = win0_6.cut (grid0.coords t) (mblk m c t) := by
  funext j
  show k0_pay2 (F := Ideal) _ _ _ _ _ _ (win0_6.xinj (grid0.coords t) j) = mblk m c t (win0_6.xinj (grid0.coords t) j)
  have hq : (j 1).val < win0_5.xsize (grid0.coords t) 1 := by
    have := (j 1).isLt; rw [← (xsize_facts t).2.2.2.2]; exact this
  have hr : (j 0).val < 1024 := Nat.lt_of_lt_of_le (j 0).isLt (win0_6.xsize_le (grid0.coords t) 0)
  have hq' : (j 1).val < 1280 := Nat.lt_of_lt_of_le (j 1).isLt (win0_6.xsize_le (grid0.coords t) 1)
  have e : win0_6.xinj (grid0.coords t) j = ix2 (⟨(j 0).val, hr⟩ : Fin 1024) (⟨(j 1).val, hq'⟩ : Fin 1280) :=
    funext fun a => Fin.ext (by match a with | ⟨0, _⟩ => rfl | ⟨1, _⟩ => rfl)
  rw [e]
  unfold mblk cblk nblk
  exact pay2_fill_indep t _ _ _ _ _ _ _ _ _ _ _ hq

/-! ## The body obligation -/

/-- What the body is called with at point `t`: the invariant, nothing owed, each current staging buffer at what
    the pipeline left in it. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns: the uncut buffers at the proof data's contents, the clipped ones at them on the part their
    transfers move. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare ((cfg0.win 1).fill (cfg0.grid.coords t) d ((cfg0.win 1).cut (cfg0.grid.coords t) ((dats m 0 c).after 1 t))))
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare ((cfg0.win 4).fill (cfg0.grid.coords t) d ((cfg0.win 4).cut (cfg0.grid.coords t) ((dats m 0 c).after 4 t))))
    ∗ (∃ d, owns (c : Thread nD τ) (st0_5 t) fullShare ((cfg0.win 5).fill (cfg0.grid.coords t) d ((cfg0.win 5).cut (cfg0.grid.coords t) ((dats m 0 c).after 5 t))))
    ∗ (∃ d, owns (c : Thread nD τ) (st0_6 t) fullShare ((cfg0.win 6).fill (cfg0.grid.coords t) d ((cfg0.win 6).cut (cfg0.grid.coords t) ((dats m 0 c).after 6 t)))))

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel (F := Ideal) c Set.univ (grid0.coords t) _ _ _ _ _ _ _ _ _ _ _ _ _ _ (iblk m c 0 t)
    (win0_1.fill (grid0.coords t) d1 (iblk m c 1 t)) (iblk m c 2 t) (iblk m c 3 t)
    (win0_4.fill (grid0.coords t) d4 (iblk m c 4 t)) _)
  isplitl [H0]; · iexact H0
  isplitl [H1]; · iexact H1
  isplitl [H2]; · iexact H2
  isplitl [H3]; · iexact H3
  isplitl [H4]; · iexact H4
  isplitl [H5]; · iexists d5; iexact H5
  isplitl [H6]; · iexists d6; iexact H6
  iintro ⟨H0, H1, H2, H3, H4, H5, H6⟩
  isplitl [HΦ]; · iexact HΦ
  isplitl [Ho]; · iexact Ho
  isplitl [H0]; · iexact H0
  isplitl [H1]
  · iexists d1
    change _ ⊢ owns (c : Thread nD τ) (st0_1 t) fullShare (win0_1.fill (grid0.coords t) d1 (win0_1.cut (grid0.coords t) (cblk m c t)))
    unfold cblk; rw [Window.cut_fill]; try iexact H1
  isplitl [H2]; · iexact H2
  isplitl [H3]; · iexact H3
  isplitl [H4]
  · iexists d4
    change _ ⊢ owns (c : Thread nD τ) (st0_4 t) fullShare (win0_4.fill (grid0.coords t) d4 (win0_4.cut (grid0.coords t) (nblk m c t)))
    unfold nblk; rw [Window.cut_fill]; try iexact H4
  isplitl [H5]
  · iexists _
    change _ ⊢ owns (c : Thread nD τ) (st0_5 t) fullShare (win0_5.fill (grid0.coords t) _ (win0_5.cut (grid0.coords t) (lblk m c t)))
    rw [← cut5_eq m c t d1 d4, Window.fill_cut]; try iexact H5
  · iexists _
    change _ ⊢ owns (c : Thread nD τ) (st0_6 t) fullShare (win0_6.fill (grid0.coords t) _ (win0_6.cut (grid0.coords t) (mblk m c t)))
    rw [← cut6_eq m c t d1 d4, Window.fill_cut]; try iexact H6

/-- The library's body obligation, at every point. -/
theorem body_obligation (c : Dev nD) : BodyObligationLoose (dats (F := Ideal) m 0 c) (defs₀ (F := Ideal)) Variants.none () Set.univ := fun t => by
  rw [bigSep_W0, bigSep_W0]
  exact sound_body m c t

/-! ## The run and the frame -/

set_option backward.isDefEq.respectTransparency.types false in
/-- Every weakly fair execution of @main terminates, nothing faulting; the pipeline's arrays end at what the
    proof data give, every other unscoped buffer as the host operations after the region leave it. -/
theorem run_main : θ_run defs (onTc (τ := τ) (main (F := Ideal))) (s₀ m ρ)
    (Pipeline.FramePost cfgs (dats m) 0 (Pipeline.afterTail₀ cfgs (dats m) 0 (V0 m) [hostOps1, hostOps1_1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hΦ := fun _ _ => rfl)

/-- The argument arrays end unchanged. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.KBody.lean ====
/-
  The kernel body as a triple, at any float instance.

  The body reads its five input staging buffers whole (the feature block, the centre block, the
  label column, the two half-norm vectors), and stores two whole 1024 × 1280 blocks: the logits
  block and the margin block, each a pure function of what was read. Whatever the two output
  buffers held before is overwritten.
-/
import proofs.«431028_j76897094468407_3_alg».proof.Proof.Gen.Kernel.Frame
import proofs.«431028_j76897094468407_3_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole 1024 × 1280 rectangle of an output staging buffer. -/
abbrev rOut : Rect S1024x1280 := Rect.unit (s := S1024x1280) ![0, 0] S1024x1280.size inb_S1024x1280_S1024x1280_0_0

/-- One whole-buffer store covers the buffer. -/
theorem coverOut (p0 : Vec F S1024x1280 .f32) (y : S1024x1280.Idx) :
    ∃ pc ∈ ([⟨rOut, p0⟩] : List (View.Piece (Elt F) S1024x1280 .f32)), y ∈ pc.1.set :=
  View.cover_of_tiled [⟨rOut, p0⟩] S1024x1280.size (by rfl) y

set_option maxHeartbeats 4000000 in
/-- The body on whole staging memrefs: inputs at contents `x0 … x4`, outputs at anything; it ends with the
    inputs as they were, the logits buffer at the first payload and the margin buffer at the second. -/
theorem sound_kernel (c : Dev nD) (E : Set ℕ) (i : grid0.Coords)
    (arg2 : Memref sig .tc .vmem S1024x256 .bf16) (harg2 : arg2.IsWhole)
    (arg3 : Memref sig .tc .vmem S1280x256 .bf16) (harg3 : arg3.IsWhole)
    (arg4 : Memref sig .tc .vmem S1024x1 .i32) (harg4 : arg4.IsWhole)
    (arg5 : Memref sig .tc .vmem S1024x1 .f32) (harg5 : arg5.IsWhole)
    (arg6 : Memref sig .tc .vmem S1x1280 .f32) (harg6 : arg6.IsWhole)
    (arg7 : Memref sig .tc .vmem S1024x1280 .f32) (harg7 : arg7.IsWhole)
    (arg8 : Memref sig .tc .vmem S1024x1280 .f32) (harg8 : arg8.IsWhole)
    (x0 : Vec F S1024x256 .bf16) (x1 : Vec F S1280x256 .bf16) (x2 : Vec F S1024x1 .i32)
    (x3 : Vec F S1024x1 .f32) (x4 : Vec F S1x1280 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4
            ∗ owns (c : Thread nD τ) arg7 fullShare (k0_pay1 x0 x1 x3 x4)
            ∗ owns (c : Thread nD τ) arg8 fullShare (k0_pay2 i x0 x1 x3 x4 x2)) -∗ K ⟨⟩))
      ⊢ wp frame (wpE (defs₀ (F := F)) Variants.none c none) E
          (cc0__lgm_kernel i arg2 harg2 arg3 harg3 arg4 harg4 arg5 harg5 arg6 harg6 arg7 harg7 arg8 harg8) K := by
  simp only [cc0__lgm_kernel_eq_skeleton]; unfold cc0__lgm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  have hz : (![0, 0] : Fin 2 → Nat) = fun _ => 0 := funext fun a => by fin_cases a <;> rfl
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (coverOut _), View.canon_unit_zero hz]
    simp only [View.readAt_eq_ld, View.ld_unit_zero (S := S1024x256) hz, View.ld_unit_zero (S := S1280x256) hz,
      View.ld_unit_zero (S := S1024x1) hz, View.ld_unit_zero (S := S1x1280) hz]
  · iexists _; isplitr
    swap; · iexact H6
    ipureintro
    rw [View.read_writes_eq_canon _ _ _ (coverOut _), View.canon_unit_zero hz]
    simp only [View.readAt_eq_ld, View.ld_unit_zero (S := S1024x256) hz, View.ld_unit_zero (S := S1280x256) hz,
      View.ld_unit_zero (S := S1024x1) hz, View.ld_unit_zero (S := S1x1280) hz]

end Cert.Kernel.Hand

end
-- ==== Proof.KData.lean ====
/-
  The proof data of the one pipeline, at any float instance.

  The grid is 8 × 8: point t = (i, j) works on feature rows 1024·i … 1024·i + 1023 and on centre rows
  (output columns) 1280·j … 1280·j + 1279. The centres have 10000 rows, so at j = 7 only the first 1040
  rows of the centre block, of the half-norm row, and of the two output blocks lie inside their arrays;
  the staging buffers' remaining rows hold words nothing names, and what the body computes from them is
  never written back.

  After the body at point t: each input buffer holds its block (for the two clipped inputs, filled out
  past the array's end with a zero word, which nothing reads); the logits buffer and the margin buffer
  hold the body's two payloads of those.
-/
import proofs.«431028_j76897094468407_3_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The centre block of point `t` as the staging buffer holds it: the rows inside the array, a zero word past its end. -/
def cblk (c : Dev nD) (t : Fin cfg0.N) : Vec F S1280x256 .bf16 :=
  win0_1.fill (grid0.coords t) (fun _ => Scalar.ofBits .bf16 0#16) (iblk m c 1 t)

/-- The centres' half-norm row of point `t`, likewise. -/
def nblk (c : Dev nD) (t : Fin cfg0.N) : Vec F S1x1280 .f32 :=
  win0_4.fill (grid0.coords t) (fun _ => Scalar.ofBits .f32 0#32) (iblk m c 4 t)

/-- What the logits buffer holds after the body at point `t`. -/
def lblk (c : Dev nD) (t : Fin cfg0.N) : Vec F S1024x1280 .f32 :=
  k0_pay1 (iblk m c 0 t) (cblk m c t) (iblk m c 3 t) (nblk m c t)

/-- What the margin buffer holds after the body at point `t`. -/
def mblk (c : Dev nD) (t : Fin cfg0.N) : Vec F S1024x1280 .f32 :=
  k0_pay2 (grid0.coords t) (iblk m c 0 t) (cblk m c t) (iblk m c 3 t) (nblk m c t) (iblk m c 2 t)

/-- The proof data of the pipeline on core `c`: the arrays as the region finds them; after the body the
    input buffers at their blocks and the two output buffers at the payloads; the class's invariant; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => cblk m c t
    | ⟨2, _⟩ => iblk m c 2 t
    | ⟨3, _⟩ => iblk m c 3 t
    | ⟨4, _⟩ => nblk m c t
    | ⟨5, _⟩ => lblk m c t
    | ⟨6, _⟩ => mblk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = cblk m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = nblk m c t := by dsimp only [dats]
theorem after0_5 (c : Dev nD) (t : Fin cfg0.N) : (dats m 0 c).after 5 t = lblk m c t := by dsimp only [dats]
theorem after0_6 (c : Dev nD) (t : Fin cfg0.N) : (dats m 0 c).after 6 t = mblk m c t := by dsimp only [dats]

/-- The uncut inputs' buffers hold their blocks at every point, fetched there or not. -/
theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The clipped inputs are fetched at every point: their buffers hold the block's rows inside the array, and `d`
    past its end. -/
theorem before0_1 (c : Dev nD) (t : Fin cfg0.N) (d) :
    (dats m 0 c).before 1 t d = win0_1.fill (grid0.coords t) d (iblk m c 1 t) := by
  rw [(dats m 0 c).before_fetched 1 t (fetch0_1 t)]
  unfold Dat.fetched Dat.blockOf iblk; rw [A_eq]
theorem before0_4 (c : Dev nD) (t : Fin cfg0.N) (d) :
    (dats m 0 c).before 4 t d = win0_4.fill (grid0.coords t) d (iblk m c 4 t) := by
  rw [(dats m 0 c).before_fetched 4 t (fetch0_4 t)]
  unfold Dat.fetched Dat.blockOf iblk; rw [A_eq]

/-- The output buffers are written back at every point: the body finds them at contents nothing names. -/
theorem before0_5 (c : Dev nD) (t : Fin cfg0.N) (d) : (dats m 0 c).before 5 t d = d :=
  (dats m 0 c).before_out_reset 5 rfl t (by
    by_cases h : t.val = 0
    · exact .inl h
    · exact .inr ⟨h, flush0_5 _⟩) d
theorem before0_6 (c : Dev nD) (t : Fin cfg0.N) (d) : (dats m 0 c).before 6 t d = d :=
  (dats m 0 c).before_out_reset 6 rfl t (by
    by_cases h : t.val = 0
    · exact .inl h
    · exact .inr ⟨h, flush0_6 _⟩) d

end Cert.Kernel.Hand

end
-- ==== Proof.KRun.lean ====
/-
  The frame of the program as printed (at the word-level instance, and at any other).

  The frame claim reads nothing of the two output arrays, so the proof data forget the two output windows:
  the body is handed their buffers at any contents and hands them back at any contents. The five input
  buffers come back as they were found. The host operations after the region write only buffers of their
  own, none of them an argument array.
-/
import proofs.«431028_j76897094468407_3_alg».proof.Proof.KData
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows the frame claim does not read: the two outputs. -/
abbrev forgets0 : Fin 7 → Bool := fun | 0 => false | 1 => false | 2 => false | 3 => false | 4 => false | 5 => true | 6 => true | ⟨_ + 7, h⟩ => absurd h (Nat.not_lt.2 (Nat.le_add_left _ _))

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X)
    ∗ (∃ X, owns (c : Thread nD τ) (st0_6 t) fullShare X))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare ((cfg0.win 1).fill (cfg0.grid.coords t) d ((cfg0.win 1).cut (cfg0.grid.coords t) ((dats m 0 c).after 1 t))))
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare ((cfg0.win 4).fill (cfg0.grid.coords t) d ((cfg0.win 4).cut (cfg0.grid.coords t) ((dats m 0 c).after 4 t))))
    ∗ (∃ X, owns (c : Thread nD τ) (st0_5 t) fullShare X)
    ∗ (∃ X, owns (c : Thread nD τ) (st0_6 t) fullShare X))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel (F := F) c Set.univ (grid0.coords t) _ _ _ _ _ _ _ _ _ _ _ _ _ _ (iblk m c 0 t)
    (win0_1.fill (grid0.coords t) d1 (iblk m c 1 t)) (iblk m c 2 t) (iblk m c 3 t)
    (win0_4.fill (grid0.coords t) d4 (iblk m c 4 t)) _)
  isplitl [H0]; · iexact H0
  isplitl [H1]; · iexact H1
  isplitl [H2]; · iexact H2
  isplitl [H3]; · iexact H3
  isplitl [H4]; · iexact H4
  isplitl [H5]; · iexists d5; iexact H5
  isplitl [H6]; · iexists d6; iexact H6
  iintro ⟨H0, H1, H2, H3, H4, H5, H6⟩
  isplitl [HΦ]; · iexact HΦ
  isplitl [Ho]; · iexact Ho
  isplitl [H0]; · iexact H0
  isplitl [H1]
  · iexists d1
    change _ ⊢ owns (c : Thread nD τ) (st0_1 t) fullShare (win0_1.fill (grid0.coords t) d1 (win0_1.cut (grid0.coords t) (cblk m c t)))
    unfold cblk; rw [Window.cut_fill]; try iexact H1
  isplitl [H2]; · iexact H2
  isplitl [H3]; · iexact H3
  isplitl [H4]
  · iexists d4
    change _ ⊢ owns (c : Thread nD τ) (st0_4 t) fullShare (win0_4.fill (grid0.coords t) d4 (win0_4.cut (grid0.coords t) (nblk m c t)))
    unfold nblk; rw [Window.cut_fill]; try iexact H4
  isplitl [H5]; · iexists _; iexact H5
  · iexists _; iexact H6

/-- The library's body obligation with the two outputs forgotten, at every point. -/
theorem body_obligation (c : Dev nD) : BodyObligationLoose (dats (F := F) m 0 c) (defs₀ (F := F)) Variants.none () Set.univ forgets0 := fun t => by
  rw [bigSep_W0, bigSep_W0]
  exact sound_body m c t

/-! ## The host operations after the region -/

/-- The buffers they write. -/
def T0 : Finset (Ref sig .tc) := {main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v14, main_v15, main_v16, main_cst_3, main_v17, main_cst_4, main_v18}

theorem sfx_writes : ∀ ops ∈ ([hostOps1, hostOps1_1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide
  · simp only [hostOps1_1, List.mem_cons, List.mem_nil_iff, or_false] at hop
    rcases hop with rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-! ## The run and the frame -/

set_option backward.isDefEq.respectTransparency.types false in
/-- Every weakly fair execution of @main terminates, nothing faulting, and every unscoped buffer that is neither an
    array of the pipeline nor written after the region ends as the region found it. -/
theorem run_main : θ_run defs (onTc (τ := τ) (main (F := F))) (s₀ m ρ)
    (Pipeline.RDat.FramePostR (cfgs 0) (fun c => (dats m 0 c).toRForget forgets0) T0 (V m)) :=
  Pipeline.RDat.θ_run_frame_around_T cfgs (0 : Fin 1) launch0 defs₀ Variants.none (fun c => (dats m 0 c).toRForget forgets0) T0 m ρ main
    (hbody := fun c => (body_obligation m c).toRForget) (hshare := fun c => ((dats m 0 c).toRForget forgets0).share_full fun _ => rfl)
    (howed := fun _ _ => rfl) (V₀ := V0 m) (opss := [hostOps1, hostOps1_1]) (hsub := sfx_sub) (hfresh := sfx_fresh) (hkeep := sfx_keeps) (hT := sfx_writes)
    (hmain := hmain m Variants.none) (hA := A_eq m) (hΦ := fun _ _ => rfl)

/-- The argument arrays end unchanged: none is an array of the pipeline or written after the region, and no host
    operation before the region writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Finset.mem_sdiff.mpr ⟨Pipeline.mem_restRefs_of main_arg0 (by decide) (by decide), by decide⟩)).trans (V_main_arg0 m c),
     ((h c).2 main_arg1 (Finset.mem_sdiff.mpr ⟨Pipeline.mem_restRefs_of main_arg1 (by decide) (by decide), by decide⟩)).trans (V_main_arg1 m c),
     ((h c).2 main_arg2 (Finset.mem_sdiff.mpr ⟨Pipeline.mem_restRefs_of main_arg2 (by decide) (by decide), by decide⟩)).trans (V_main_arg2 m c)⟩)
    (run_main m ρ)

end Cert.Kernel.Hand

end
-- ==== Proof.HostPre.lean ====
/-
  What the host operations before the region leave in the five arrays the pipeline stages, read at an index,
  on the extended reals: the two narrowed copies are the arguments themselves, the label column is the label
  vector, and the two half-norm arrays are −½ times the rows' squared lengths.
-/
import proofs.«431028_j76897094468407_3_alg».proof.Proof.Gen.KernelIdeal.Frame
import proofs.«431028_j76897094468407_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-! ## Layout and row-sum readings over variables -/

/-- A vector cast to a column reads, at row `i`, the vector at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- −½ times the row sums of the squares of a [8192, 256] array, as a column, read at row `b`. -/
private theorem negHalf_rowsq_feat (x : FVec Ideal S8192x256 .f32) (b : Fin 8192) :
    (mulf (broadcastInDim S8192x1 ![] bcast_S_S8192x1 (constant (F := Ideal) S_ .f32 0xBF000000#32))
        (broadcastInDim S8192x1 ![0] bcast_S8192_S8192x1_0
          (Host.reduceAdd (F := Ideal) (mulf x x) (constant (F := Ideal) S_ .f32 0x00000000#32)
            reducesTo_S8192x256_S8192_d1 h_S_)) : FVec Ideal S8192x1 .f32) (ix2 b (0 : Fin 1))
      = Cert.Lgm.negHalf * Cert.Lgm.fsq x b := by
  rw [mulf_apply]
  rw [broadcastInDim_apply _ bcast_S_S8192x1 _ (ix2 b (0 : Fin 1)) ix0 (fun a => a.elim0)]
  rw [broadcastInDim_apply _ bcast_S8192_S8192x1_0 _ (ix2 b (0 : Fin 1)) (ix1 b) (fun a => match a with
    | ⟨0, _⟩ => by show b.val = if (8192 : Nat) = 1 then 0 else b.val; rw [if_neg (by decide)])]
  rw [constant_apply]
  show Cert.Lgm.negHalf * _ = _
  refine congrArg (Cert.Lgm.negHalf * ·) ?_
  simp only [Host.reduceAdd, Ideal.hostReduceAdd_def]
  rw [Ideal.hostReduceAdd_single reducesTo_S8192x256_S8192_d1 (by decide)]
  rw [constant_apply, Ideal.ofBits_zero_f32, zero_add]
  unfold Cert.Lgm.fsq
  refine Finset.sum_congr rfl fun k _ => ?_
  rw [mulf_apply]
  exact congrArg (fun i => x i * x i)
    (funext fun a => Fin.ext (by match a with | ⟨0, _⟩ => rfl | ⟨1, _⟩ => rfl))

/-- −½ times the row sums of the squares of a [10000, 256] array, as a row, read at column `k`. -/
private theorem negHalf_rowsq_cen (x : FVec Ideal S10000x256 .f32) (k : Fin 10000) :
    (mulf (broadcastInDim S1x10000 ![] bcast_S_S1x10000 (constant (F := Ideal) S_ .f32 0xBF000000#32))
        (broadcastInDim S1x10000 ![1] bcast_S10000_S1x10000_1
          (Host.reduceAdd (F := Ideal) (mulf x x) (constant (F := Ideal) S_ .f32 0x00000000#32)
            reducesTo_S10000x256_S10000_d1 h_S_)) : FVec Ideal S1x10000 .f32) (ix2 (0 : Fin 1) k)
      = Cert.Lgm.negHalf * Cert.Lgm.csq x k := by
  rw [mulf_apply]
  rw [broadcastInDim_apply _ bcast_S_S1x10000 _ (ix2 (0 : Fin 1) k) ix0 (fun a => a.elim0)]
  rw [broadcastInDim_apply _ bcast_S10000_S1x10000_1 _ (ix2 (0 : Fin 1) k) (ix1 k) (fun a => match a with
    | ⟨0, _⟩ => by show k.val = if (10000 : Nat) = 1 then 0 else k.val; rw [if_neg (by decide)])]
  rw [constant_apply]
  show Cert.Lgm.negHalf * _ = _
  refine congrArg (Cert.Lgm.negHalf * ·) ?_
  simp only [Host.reduceAdd, Ideal.hostReduceAdd_def]
  rw [Ideal.hostReduceAdd_single reducesTo_S10000x256_S10000_d1 (by decide)]
  rw [constant_apply, Ideal.ofBits_zero_f32, zero_add]
  unfold Cert.Lgm.csq
  refine Finset.sum_congr rfl fun d _ => ?_
  rw [mulf_apply]
  exact congrArg (fun i => x i * x i)
    (funext fun a => Fin.ext (by match a with | ⟨0, _⟩ => rfl | ⟨1, _⟩ => rfl))

/-! ## The five staged arrays -/

theorem V_v0_apply (c : Dev nD) (b : Fin 8192) (d : Fin 256) :
    (V m c main_v0 : S8192x256.Idx → EReal) (ix2 b d)
      = (m ((c : Thread nD τ).loc main_arg0) : S8192x256.Idx → EReal) (ix2 b d) := by
  have e : (V m c main_v0 : S8192x256.Idx → EReal)
      = (truncf .bf16 (m ((c : Thread nD τ).loc main_arg0) : FVec Ideal S8192x256 .f32) bitsLt_bf16_f32
          : FVec Ideal S8192x256 .bf16) := by
    show StableHlo.after hostOps0 (fun b => m (c, b)) (Proc.devRef .tc main_v0) = _
    after_results
  rw [e, truncf_apply]

theorem V_v1_apply (c : Dev nD) (k : Fin 10000) (d : Fin 256) :
    (V m c main_v1 : S10000x256.Idx → EReal) (ix2 k d)
      = (m ((c : Thread nD τ).loc main_arg2) : S10000x256.Idx → EReal) (ix2 k d) := by
  have e : (V m c main_v1 : S10000x256.Idx → EReal)
      = (truncf .bf16 (m ((c : Thread nD τ).loc main_arg2) : FVec Ideal S10000x256 .f32) bitsLt_bf16_f32
          : FVec Ideal S10000x256 .bf16) := by
    show StableHlo.after hostOps0 (fun b => m (c, b)) (Proc.devRef .tc main_v1) = _
    after_results
  rw [e, truncf_apply]

theorem V_v2_apply (c : Dev nD) (b : Fin 8192) :
    (V m c main_v2 : S8192x1.Idx → BitVec 32) (ix2 b (0 : Fin 1))
      = (m ((c : Thread nD τ).loc main_arg1) : S8192.Idx → BitVec 32) (ix1 b) := by
  have e : (V m c main_v2 : S8192x1.Idx → BitVec 32)
      = shapeCast S8192x1 (m ((c : Thread nD τ).loc main_arg1) : S8192.Idx → BitVec 32) shapeCasts_S8192_S8192x1 := by
    show StableHlo.after hostOps0 (fun b => m (c, b)) (Proc.devRef .tc main_v2) = _
    after_results
    rfl
  rw [e]
  exact shapeCast_a_a1_apply _ shapeCasts_S8192_S8192x1 b 0

theorem V_v7_apply (c : Dev nD) (b : Fin 8192) :
    (V m c main_v7 : S8192x1.Idx → EReal) (ix2 b (0 : Fin 1))
      = Cert.Lgm.negHalf * Cert.Lgm.fsq (m ((c : Thread nD τ).loc main_arg0)) b := by
  have e : (V m c main_v7 : S8192x1.Idx → EReal)
      = (mulf (broadcastInDim S8192x1 ![] bcast_S_S8192x1 (constant (F := Ideal) S_ .f32 0xBF000000#32))
          (broadcastInDim S8192x1 ![0] bcast_S8192_S8192x1_0
            (Host.reduceAdd (F := Ideal)
              (mulf (m ((c : Thread nD τ).loc main_arg0) : FVec Ideal S8192x256 .f32) (m ((c : Thread nD τ).loc main_arg0)))
              (constant (F := Ideal) S_ .f32 0x00000000#32)
              reducesTo_S8192x256_S8192_d1 h_S_)) : FVec Ideal S8192x1 .f32) := by
    show StableHlo.after hostOps0 (fun b => m (c, b)) (Proc.devRef .tc main_v7) = _
    after_results
  rw [e]
  exact negHalf_rowsq_feat _ b

theorem V_v12_apply (c : Dev nD) (k : Fin 10000) :
    (V m c main_v12 : S1x10000.Idx → EReal) (ix2 (0 : Fin 1) k)
      = Cert.Lgm.negHalf * Cert.Lgm.csq (m ((c : Thread nD τ).loc main_arg2)) k := by
  have e : (V m c main_v12 : S1x10000.Idx → EReal)
      = (mulf (broadcastInDim S1x10000 ![] bcast_S_S1x10000 (constant (F := Ideal) S_ .f32 0xBF000000#32))
          (broadcastInDim S1x10000 ![1] bcast_S10000_S1x10000_1
            (Host.reduceAdd (F := Ideal)
              (mulf (m ((c : Thread nD τ).loc main_arg2) : FVec Ideal S10000x256 .f32) (m ((c : Thread nD τ).loc main_arg2)))
              (constant (F := Ideal) S_ .f32 0x00000000#32)
              reducesTo_S10000x256_S10000_d1 h_S_)) : FVec Ideal S1x10000 .f32) := by
    show StableHlo.after hostOps0 (fun b => m (c, b)) (Proc.devRef .tc main_v12) = _
    after_results
  rw [e]
  exact negHalf_rowsq_cen _ k

end Cert.KernelIdeal.Hand

end
-- ==== Proof.Blocks.lean ====
/-
  From blocks to arrays. Point t = (i, j) writes back rows 1024·i … and columns 1280·j … (at j = 7 only the 1040
  columns inside the array) of the logits and of the margin array; what it writes there is the specification's
  array read through the same block; the 64 blocks cover both arrays.
-/
import proofs.«431028_j76897094468407_3_alg».proof.Proof.Data
import proofs.«431028_j76897094468407_3_alg».proof.Proof.PayloadIdx
import proofs.«431028_j76897094468407_3_alg».proof.Proof.HostPre
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The printed index maps and cut sizes at each of the 64 grid points: point t = 8·i + j reads feature
    rows at block i, centre rows at block j (1040 of them at j = 7), and writes the output block (i, j). -/
theorem idx_facts : ∀ t : Fin cfg0.N,
    win0_0.index t 0 = t.val / 8 ∧ win0_0.index t 1 = 0
    ∧ win0_1.index t 0 = t.val % 8 ∧ win0_1.index t 1 = 0
    ∧ win0_2.index t 0 = t.val / 8 ∧ win0_2.index t 1 = 0
    ∧ win0_3.index t 0 = t.val / 8 ∧ win0_3.index t 1 = 0
    ∧ win0_4.index t 0 = 0 ∧ win0_4.index t 1 = t.val % 8
    ∧ win0_5.index t 0 = t.val / 8 ∧ win0_5.index t 1 = t.val % 8
    ∧ win0_6.index t 0 = t.val / 8 ∧ win0_6.index t 1 = t.val % 8
    ∧ win0_1.xsize (grid0.coords t) 0 = (if t.val % 8 = 7 then 1040 else 1280)
    ∧ win0_1.xsize (grid0.coords t) 1 = 256
    ∧ win0_4.xsize (grid0.coords t) 0 = 1
    ∧ win0_4.xsize (grid0.coords t) 1 = (if t.val % 8 = 7 then 1040 else 1280)
    ∧ win0_5.xsize (grid0.coords t) 0 = 1024
    ∧ win0_5.xsize (grid0.coords t) 1 = (if t.val % 8 = 7 then 1040 else 1280)
    ∧ win0_6.xsize (grid0.coords t) 0 = 1024
    ∧ win0_6.xsize (grid0.coords t) 1 = (if t.val % 8 = 7 then 1040 else 1280) :=
  (by decide +kernel : ∀ t : Fin grid0.N, _)

/-- The grid's second coordinate at point t = 8·i + j is j. -/
theorem col_coord : ∀ t : Fin cfg0.N, (grid0.coords t 1).val = t.val % 8 :=
  (by decide +kernel : ∀ t : Fin grid0.N, _)

/-- The feature block of point t = 8·i + j, at row r: feature row 1024·i + r. -/
theorem feat_blk (c : Dev nD) (t : Fin cfg0.N) (r : Fin 1024) (d : Fin 256) (b : Fin 8192)
    (hb : b.val = 1024 * (t.val / 8) + r.val) :
    (iblk m c 0 t : Vec Ideal S1024x256 .bf16) (ix2 r d)
      = (m ((c : Thread nD τ).loc main_arg0) : S8192x256.Idx → EReal) (ix2 b d) := by
  obtain ⟨e0, e1, -⟩ := idx_facts t
  unfold iblk
  rw [View.read_apply]
  show (V m c main_v0 : S8192x256.Idx → EReal) _ = _
  refine Eq.trans (congrArg _ ?_) (V_v0_apply m c b d)
  funext a
  apply Fin.ext
  match a with
  | ⟨0, _⟩ => show win0_0.index t 0 * 1024 + 1 * r.val = b.val; rw [e0, hb]; omega
  | ⟨1, _⟩ => show win0_0.index t 1 * 256 + 1 * d.val = d.val; rw [e1]; omega

/-- The label column's block, at row r: the label of feature row 1024·i + r. -/
theorem lab_blk (c : Dev nD) (t : Fin cfg0.N) (r : Fin 1024) (b : Fin 8192)
    (hb : b.val = 1024 * (t.val / 8) + r.val) :
    (iblk m c 2 t : Vec Ideal S1024x1 .i32) (ix2 r (0 : Fin 1))
      = (m ((c : Thread nD τ).loc main_arg1) : S8192.Idx → BitVec 32) (ix1 b) := by
  obtain ⟨-, -, -, -, e0, e1, -⟩ := idx_facts t
  unfold iblk
  rw [View.read_apply]
  show (V m c main_v2 : S8192x1.Idx → BitVec 32) _ = _
  refine Eq.trans (congrArg _ ?_) (V_v2_apply m c b)
  funext a
  apply Fin.ext
  match a with
  | ⟨0, _⟩ => show win0_2.index t 0 * 1024 + 1 * r.val = b.val; rw [e0, hb]; omega
  | ⟨1, _⟩ => show win0_2.index t 1 * 1 + 1 * 0 = 0; rw [e1]

/-- The features' half-norm block, at row r: −½ times the squared length of feature row 1024·i + r. -/
theorem fnh_blk (c : Dev nD) (t : Fin cfg0.N) (r : Fin 1024) (b : Fin 8192)
    (hb : b.val = 1024 * (t.val / 8) + r.val) :
    (iblk m c 3 t : Vec Ideal S1024x1 .f32) (ix2 r (0 : Fin 1))
      = Cert.Lgm.negHalf * Cert.Lgm.fsq (m ((c : Thread nD τ).loc main_arg0)) b := by
  obtain ⟨-, -, -, -, -, -, e0, e1, -⟩ := idx_facts t
  unfold iblk
  rw [View.read_apply]
  show (V m c main_v7 : S8192x1.Idx → EReal) _ = _
  refine Eq.trans (congrArg _ ?_) (V_v7_apply m c b)
  funext a
  apply Fin.ext
  match a with
  | ⟨0, _⟩ => show win0_3.index t 0 * 1024 + 1 * r.val = b.val; rw [e0, hb]; omega
  | ⟨1, _⟩ => show win0_3.index t 1 * 1 + 1 * 0 = 0; rw [e1]

/-- The centre block of point t = 8·i + j, at a row q whose centre 1280·j + q exists: that centre's row. -/
theorem cen_blk (c : Dev nD) (t : Fin cfg0.N) (q : Fin 1280) (d : Fin 256) (k : Fin 10000)
    (hk : k.val = 1280 * (t.val % 8) + q.val) :
    (cblk m c t : Vec Ideal S1280x256 .bf16) (ix2 q d)
      = (m ((c : Thread nD τ).loc main_arg2) : S10000x256.Idx → EReal) (ix2 k d) := by
  obtain ⟨-, -, e0, e1, -, -, -, -, -, -, -, -, -, -, x0, x1, -⟩ := idx_facts t
  have ht : t.val < 64 := t.isLt
  have hmv : win0_1.moved (grid0.coords t) (ix2 q d) = true := by
    rw [Window.moved_iff]
    intro a
    match a with
    | ⟨0, _⟩ => show q.val < win0_1.xsize (grid0.coords t) 0; rw [x0]; have := k.isLt; split <;> omega
    | ⟨1, _⟩ => show d.val < win0_1.xsize (grid0.coords t) 1; rw [x1]; exact d.isLt
  unfold cblk Window.fill
  rw [dif_pos hmv]
  unfold iblk
  rw [View.read_apply]
  show (V m c main_v1 : S10000x256.Idx → EReal) _ = _
  refine Eq.trans (congrArg _ ?_) (V_v1_apply m c k d)
  funext a
  apply Fin.ext
  match a with
  | ⟨0, _⟩ => show win0_1.index t 0 * 1280 + 1 * q.val = k.val; rw [e0, hk]; omega
  | ⟨1, _⟩ => show win0_1.index t 1 * 256 + 1 * d.val = d.val; rw [e1]; omega

/-- The centres' half-norm block, at a column q whose centre 1280·j + q exists: −½ times that centre's squared length. -/
theorem cnh_blk (c : Dev nD) (t : Fin cfg0.N) (q : Fin 1280) (k : Fin 10000)
    (hk : k.val = 1280 * (t.val % 8) + q.val) :
    (nblk m c t : Vec Ideal S1x1280 .f32) (ix2 (0 : Fin 1) q)
      = Cert.Lgm.negHalf * Cert.Lgm.csq (m ((c : Thread nD τ).loc main_arg2)) k := by
  obtain ⟨-, -, -, -, -, -, -, -, e0, e1, -, -, -, -, -, -, x0, x1, -⟩ := idx_facts t
  have ht : t.val < 64 := t.isLt
  have hmv : win0_4.moved (grid0.coords t) (ix2 (0 : Fin 1) q) = true := by
    rw [Window.moved_iff]
    intro a
    match a with
    | ⟨0, _⟩ => show 0 < win0_4.xsize (grid0.coords t) 0; rw [x0]; exact Nat.one_pos
    | ⟨1, _⟩ => show q.val < win0_4.xsize (grid0.coords t) 1; rw [x1]; have := k.isLt; split <;> omega
  unfold nblk Window.fill
  rw [dif_pos hmv]
  unfold iblk
  rw [View.read_apply]
  show (V m c main_v12 : S1x10000.Idx → EReal) _ = _
  refine Eq.trans (congrArg _ ?_) (V_v12_apply m c k)
  funext a
  apply Fin.ext
  match a with
  | ⟨0, _⟩ => show win0_4.index t 0 * 1 + 1 * 0 = 0; rw [e0]
  | ⟨1, _⟩ => show win0_4.index t 1 * 1280 + 1 * q.val = k.val; rw [e1, hk]; omega

/-- What the logits buffer holds after the body at point t = 8·i + j, at row r and a column q whose array column
    1280·j + q exists: the specification's logit of feature row 1024·i + r and that centre. -/
theorem lblk_apply (c : Dev nD) (t : Fin cfg0.N) (r : Fin 1024) (q : Fin 1280) (b : Fin 8192) (k : Fin 10000)
    (hb : b.val = 1024 * (t.val / 8) + r.val) (hk : k.val = 1280 * (t.val % 8) + q.val) :
    (lblk m c t : Vec Ideal S1024x1280 .f32) (ix2 r q)
      = Cert.Lgm.logitsAt (m ((c : Thread nD τ).loc main_arg0)) (m ((c : Thread nD τ).loc main_arg2)) b k := by
  unfold lblk
  rw [pay1_apply, fnh_blk m c t r b hb, cnh_blk m c t q k hk]
  unfold Cert.Lgm.logitsAt Cert.Lgm.cross
  congr 2
  refine Finset.sum_congr rfl fun d _ => ?_
  rw [feat_blk m c t r d b hb, cen_blk m c t q d k hk]

/-- The margin buffer likewise: the column's number in the whole array is 1280·j + q, so the payload's test of the
    row's label against it is the specification's. -/
theorem mblk_apply (c : Dev nD) (t : Fin cfg0.N) (r : Fin 1024) (q : Fin 1280) (b : Fin 8192) (k : Fin 10000)
    (hb : b.val = 1024 * (t.val / 8) + r.val) (hk : k.val = 1280 * (t.val % 8) + q.val) :
    (mblk m c t : Vec Ideal S1024x1280 .f32) (ix2 r q)
      = Cert.Lgm.marginAt (m ((c : Thread nD τ).loc main_arg0)) (m ((c : Thread nD τ).loc main_arg1))
          (m ((c : Thread nD τ).loc main_arg2)) b k := by
  have hl := lblk_apply m c t r q b k hb hk
  unfold lblk at hl
  unfold mblk
  rw [pay2_apply, hl, lab_blk m c t r b hb, col_coord t, ← hk]
  rfl

/-- What point t writes back to the logits array is the specification's logits read through t's block. -/
theorem flushed5_eq (c : Dev nD) (t : Fin cfg0.N) :
    (dats m 0 c).flushed 5 t = ((cfg0.win 5).blk t).view.read (Elt Ideal)
      (Cert.Lgm.logits (m ((c : Thread nD τ).loc main_arg0)) (m ((c : Thread nD τ).loc main_arg2))) := by
  show (cfg0.win 5).cut (grid0.coords t) ((dats m 0 c).after 5 t) = _
  rw [after0_5]
  funext j
  obtain ⟨-, -, -, -, -, -, -, -, -, -, e0, e1, -, -, -, -, -, -, x0, x1, -, -⟩ := idx_facts t
  have h0 : (j 0).val < win0_5.xsize (grid0.coords t) 0 := (j 0).isLt
  have h1 : (j 1).val < win0_5.xsize (grid0.coords t) 1 := (j 1).isLt
  rw [x0] at h0
  have h1' : (j 1).val < 1280 := by rw [x1] at h1; split at h1 <;> omega
  show (lblk m c t : Vec Ideal S1024x1280 .f32) (win0_5.xinj (grid0.coords t) j)
    = Cert.Lgm.logits _ _ ((win0_5.blk t).view.emb j)
  have hx : win0_5.xinj (grid0.coords t) j = ix2 (⟨(j 0).val, h0⟩ : Fin 1024) (⟨(j 1).val, h1'⟩ : Fin 1280) := by
    funext a
    match a with
    | ⟨0, _⟩ => rfl
    | ⟨1, _⟩ => rfl
  rw [hx]
  unfold Cert.Lgm.logits
  exact lblk_apply m c t _ _ _ _
    (by show win0_5.index t 0 * 1024 + 1 * (j 0).val = 1024 * (t.val / 8) + (j 0).val; rw [e0]; omega)
    (by show win0_5.index t 1 * 1280 + 1 * (j 1).val = 1280 * (t.val % 8) + (j 1).val; rw [e1]; omega)

/-- What point t writes back to the margin array is the specification's margin read through t's block. -/
theorem flushed6_eq (c : Dev nD) (t : Fin cfg0.N) :
    (dats m 0 c).flushed 6 t = ((cfg0.win 6).blk t).view.read (Elt Ideal)
      (Cert.Lgm.margin (m ((c : Thread nD τ).loc main_arg0)) (m ((c : Thread nD τ).loc main_arg1))
        (m ((c : Thread nD τ).loc main_arg2))) := by
  show (cfg0.win 6).cut (grid0.coords t) ((dats m 0 c).after 6 t) = _
  rw [after0_6]
  funext j
  obtain ⟨-, -, -, -, -, -, -, -, -, -, -, -, e0, e1, -, -, -, -, -, -, x0, x1⟩ := idx_facts t
  have h0 : (j 0).val < win0_6.xsize (grid0.coords t) 0 := (j 0).isLt
  have h1 : (j 1).val < win0_6.xsize (grid0.coords t) 1 := (j 1).isLt
  rw [x0] at h0
  have h1' : (j 1).val < 1280 := by rw [x1] at h1; split at h1 <;> omega
  show (mblk m c t : Vec Ideal S1024x1280 .f32) (win0_6.xinj (grid0.coords t) j)
    = Cert.Lgm.margin _ _ _ ((win0_6.blk t).view.emb j)
  have hx : win0_6.xinj (grid0.coords t) j = ix2 (⟨(j 0).val, h0⟩ : Fin 1024) (⟨(j 1).val, h1'⟩ : Fin 1280) := by
    funext a
    match a with
    | ⟨0, _⟩ => rfl
    | ⟨1, _⟩ => rfl
  rw [hx]
  unfold Cert.Lgm.margin
  exact mblk_apply m c t _ _ _ _
    (by show win0_6.index t 0 * 1024 + 1 * (j 0).val = 1024 * (t.val / 8) + (j 0).val; rw [e0]; omega)
    (by show win0_6.index t 1 * 1280 + 1 * (j 1).val = 1280 * (t.val % 8) + (j 1).val; rw [e1]; omega)

/-- An index of the logits array is in point t's block iff each coordinate is in the block's range on its axis,
    cut at the array's end. -/
theorem mem_blk5 (t : Fin cfg0.N) (i : S8192x10000.Idx) :
    i ∈ ((cfg0.win 5).blk t).view.set ↔ ∀ a : Fin 2, win0_5.index t a * S1024x1280.size a ≤ (i a).val
      ∧ (i a).val < win0_5.index t a * S1024x1280.size a + win0_5.xsize (grid0.coords t) a := by
  show i ∈ ((View.whole main_v13_0).slice (win0_5.rect t)).set ↔ _
  rw [View.set_slice_whole, Rect.mem_set_unit]
  exact Iff.rfl

/-- The margin array's blocks likewise. -/
theorem mem_blk6 (t : Fin cfg0.N) (i : S8192x10000.Idx) :
    i ∈ ((cfg0.win 6).blk t).view.set ↔ ∀ a : Fin 2, win0_6.index t a * S1024x1280.size a ≤ (i a).val
      ∧ (i a).val < win0_6.index t a * S1024x1280.size a + win0_6.xsize (grid0.coords t) a := by
  show i ∈ ((View.whole main_v13_1).slice (win0_6.rect t)).set ↔ _
  rw [View.set_slice_whole, Rect.mem_set_unit]
  exact Iff.rfl

/-- Row b, column k of the logits array lies in the block of point 8·(b / 1024) + k / 1280: the 64 blocks cover the
    array (at k / 1280 = 7 the cut block still holds columns 8960 … 9999). -/
theorem cover5 (i : S8192x10000.Idx) :
    ∃ t : Fin cfg0.N, (cfg0.win 5).flush t = true ∧ i ∈ ((cfg0.win 5).blk t).view.set := by
  have hi0 : (i 0).val < 8192 := (i 0).isLt
  have hi1 : (i 1).val < 10000 := (i 1).isLt
  have htN : 8 * ((i 0).val / 1024) + (i 1).val / 1280 < cfg0.N := by
    show 8 * ((i 0).val / 1024) + (i 1).val / 1280 < 64
    omega
  refine ⟨⟨8 * ((i 0).val / 1024) + (i 1).val / 1280, htN⟩, flush0_5 _, ?_⟩
  rw [mem_blk5]
  obtain ⟨-, -, -, -, -, -, -, -, -, -, e0, e1, -, -, -, -, -, -, x0, x1, -, -⟩ :=
    idx_facts ⟨8 * ((i 0).val / 1024) + (i 1).val / 1280, htN⟩
  intro a
  match a with
  | ⟨0, _⟩ =>
    show win0_5.index _ 0 * 1024 ≤ (i 0).val ∧ (i 0).val < win0_5.index _ 0 * 1024 + win0_5.xsize _ 0
    rw [e0, x0]
    show (8 * ((i 0).val / 1024) + (i 1).val / 1280) / 8 * 1024 ≤ (i 0).val
      ∧ (i 0).val < (8 * ((i 0).val / 1024) + (i 1).val / 1280) / 8 * 1024 + 1024
    omega
  | ⟨1, _⟩ =>
    show win0_5.index _ 1 * 1280 ≤ (i 1).val ∧ (i 1).val < win0_5.index _ 1 * 1280 + win0_5.xsize _ 1
    rw [e1, x1]
    show (8 * ((i 0).val / 1024) + (i 1).val / 1280) % 8 * 1280 ≤ (i 1).val
      ∧ (i 1).val < (8 * ((i 0).val / 1024) + (i 1).val / 1280) % 8 * 1280
          + (if (8 * ((i 0).val / 1024) + (i 1).val / 1280) % 8 = 7 then 1040 else 1280)
    split <;> omega

/-- The margin array's blocks cover it in the same way. -/
theorem cover6 (i : S8192x10000.Idx) :
    ∃ t : Fin cfg0.N, (cfg0.win 6).flush t = true ∧ i ∈ ((cfg0.win 6).blk t).view.set := by
  have hi0 : (i 0).val < 8192 := (i 0).isLt
  have hi1 : (i 1).val < 10000 := (i 1).isLt
  have htN : 8 * ((i 0).val / 1024) + (i 1).val / 1280 < cfg0.N := by
    show 8 * ((i 0).val / 1024) + (i 1).val / 1280 < 64
    omega
  refine ⟨⟨8 * ((i 0).val / 1024) + (i 1).val / 1280, htN⟩, flush0_6 _, ?_⟩
  rw [mem_blk6]
  obtain ⟨-, -, -, -, -, -, -, -, -, -, -, -, e0, e1, -, -, -, -, -, -, x0, x1⟩ :=
    idx_facts ⟨8 * ((i 0).val / 1024) + (i 1).val / 1280, htN⟩
  intro a
  match a with
  | ⟨0, _⟩ =>
    show win0_6.index _ 0 * 1024 ≤ (i 0).val ∧ (i 0).val < win0_6.index _ 0 * 1024 + win0_6.xsize _ 0
    rw [e0, x0]
    show (8 * ((i 0).val / 1024) + (i 1).val / 1280) / 8 * 1024 ≤ (i 0).val
      ∧ (i 0).val < (8 * ((i 0).val / 1024) + (i 1).val / 1280) / 8 * 1024 + 1024
    omega
  | ⟨1, _⟩ =>
    show win0_6.index _ 1 * 1280 ≤ (i 1).val ∧ (i 1).val < win0_6.index _ 1 * 1280 + win0_6.xsize _ 1
    rw [e1, x1]
    show (8 * ((i 0).val / 1024) + (i 1).val / 1280) % 8 * 1280 ≤ (i 1).val
      ∧ (i 1).val < (8 * ((i 0).val / 1024) + (i 1).val / 1280) % 8 * 1280
          + (if (8 * ((i 0).val / 1024) + (i 1).val / 1280) % 8 = 7 then 1040 else 1280)
    split <;> omega

/-- After the last write-back the logits array is the specification's. -/
theorem final5 (c : Dev nD) :
    ((dats m 0 c).arrAt 5 cfg0.N : S8192x10000.Idx → EReal)
      = Cert.Lgm.logits (m ((c : Thread nD τ).loc main_arg0)) (m ((c : Thread nD τ).loc main_arg2)) :=
  (dats m 0 c).arrAt_eq_of_cover 5
    (Cert.Lgm.logits (m ((c : Thread nD τ).loc main_arg0)) (m ((c : Thread nD τ).loc main_arg2)))
    (fun t _ => flushed5_eq m c t) cover5

/-- After the last write-back the margin array is the specification's. -/
theorem final6 (c : Dev nD) :
    ((dats m 0 c).arrAt 6 cfg0.N : S8192x10000.Idx → EReal)
      = Cert.Lgm.margin (m ((c : Thread nD τ).loc main_arg0)) (m ((c : Thread nD τ).loc main_arg1))
          (m ((c : Thread nD τ).loc main_arg2)) :=
  (dats m 0 c).arrAt_eq_of_cover 6
    (Cert.Lgm.margin (m ((c : Thread nD τ).loc main_arg0)) (m ((c : Thread nD τ).loc main_arg1))
      (m ((c : Thread nD τ).loc main_arg2)))
    (fun t _ => flushed6_eq m c t) cover6

end Cert.KernelIdeal.Hand

end
-- ==== Proof.Tail.lean ====
/-
  The third result, the likelihood, is computed by host operations after the region: gather each row's centre by
  its label, subtract, square, sum everything, divide by 16384. The kernel's program also masks the gathered
  rows by "label in 0 … 9999" (a NaN fill elsewhere); with every label in range the mask is all ones, and the two
  programs' terms are the same function of the arguments.
-/
import proofs.«431028_j76897094468407_3_alg».proof.Proof.Gen.KernelIdeal.Frame
import proofs.«431028_j76897094468407_3_alg».proof.Proof.Gen.ReferenceIdeal.Read
import Idealize.ShloMosaic.Lib.ValueIdx
import Idealize.ShloMosaic.Lib.Pipeline.Value
import Idealize.ShloMosaic.Lib.StableHlo.Run
import Idealize.ShloMosaic.Lib.StableHlo.Predicate
import Idealize.ShloMosaic.Lib.ReduceAll

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## Scalar facts: a label in range is its own wrapped index, and passes both range tests -/

/-- A label that is not negative is kept by the wrap "add 10000 when negative". -/
theorem wrap_eq (l : BitVec 32) (h0 : BitVec.sle 0#32 l = true) :
    Scalar.select (IntOp.cmpi .slt l 0#32) (IntOp.addi l 10000#32) l = l := by
  have hs : BitVec.slt l 0#32 = false := by
    rw [BitVec.sle, decide_eq_true_eq] at h0
    rw [BitVec.slt, decide_eq_false_iff_not]
    have : (0#32 : BitVec 32).toInt = 0 := by decide
    omega
  show Scalar.select (BitVec.ofBool (BitVec.slt l 0#32)) _ _ = _
  rw [hs]
  exact select_zero _ _

/-- 0 ≤ l as the printed comparison "l ≥ 0". -/
theorem sge_zero (l : BitVec 32) (h0 : BitVec.sle 0#32 l = true) : IntOp.cmpi .sge l 0#32 = 1#1 := by
  show BitVec.ofBool (BitVec.sle 0#32 l) = 1#1
  rw [h0]; rfl

/-- l < 10000 as the printed comparison "l ≤ 9999". -/
theorem sle_max (l : BitVec 32) (h1 : BitVec.slt l 10000#32 = true) : IntOp.cmpi .sle l 9999#32 = 1#1 := by
  have hs : BitVec.sle l 9999#32 = true := by
    rw [BitVec.slt, decide_eq_true_eq] at h1
    rw [BitVec.sle, decide_eq_true_eq]
    have : (10000#32 : BitVec 32).toInt = 10000 := by decide
    have : (9999#32 : BitVec 32).toInt = 9999 := by decide
    omega
  show BitVec.ofBool (BitVec.sle l 9999#32) = 1#1
  rw [hs]; rfl

/-- A left fold by "and" from 1 over a list of 1s is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = (1#1 : BitVec 1) from by decide]
    exact foldl_andi_ones f l fun n hn => h n (List.mem_cons_of_mem _ hn)

/-- A broadcast reads its operand at some index. -/
theorem bcast_reads {α : Type} {s t : Shape} (dims : Fin s.rank → Fin t.rank) (h : s.BroadcastsInDim t dims) (x : s.Idx → α)
    (j : t.Idx) : ∃ k, broadcastInDim t dims h x j = x k := ⟨_, rfl⟩

/-! ## The kernel's tail as a term of the arguments -/

/-- The labels after the gather's wrap: 10000 is added to a negative one. -/
def kWrap (lab : (⟨S8192, .i32⟩ : BufTy).Contents (Elt Ideal)) : (⟨S8192, .i32⟩ : BufTy).Contents (Elt Ideal) :=
  select (cmpi .slt lab (broadcastInDim S8192 ![] bcast_S_S8192 (constantI S_ 32 0#32)))
    (addi lab (broadcastInDim S8192 ![] bcast_S_S8192 (constantI S_ 32 10000#32))) lab

/-- The wrapped labels as a column: the gather's start indices. -/
def kIdx (lab : (⟨S8192, .i32⟩ : BufTy).Contents (Elt Ideal)) : (⟨S8192x1, .i32⟩ : BufTy).Contents (Elt Ideal) :=
  broadcastInDim S8192x1 ![0] bcast_S8192_S8192x1_0 (kWrap lab)

/-- "0 ≤ index ≤ 9999", entry by entry of the column. -/
def kInRange (lab : (⟨S8192, .i32⟩ : BufTy).Contents (Elt Ideal)) : (⟨S8192x1, .i1⟩ : BufTy).Contents (Elt Ideal) :=
  andi (cmpi .sge (kIdx lab) (broadcastInDim S8192x1 ![] bcast_S_S8192x1 (constantI S_ 32 0#32)))
    (cmpi .sle (kIdx lab) (broadcastInDim S8192x1 ![0, 1] bcast_S1x1_S8192x1_0_1
      (broadcastInDim S1x1 ![1] bcast_S1_S1x1_1 (constantI S1 32 9999#32))))

/-- The mask of the gathered rows: the range test of each row's index, repeated along the row. -/
def kMask (lab : (⟨S8192, .i32⟩ : BufTy).Contents (Elt Ideal)) : (⟨S8192x256, .i1⟩ : BufTy).Contents (Elt Ideal) :=
  broadcastInDim S8192x256 ![0] bcast_S8192_S8192x256_0
    (Host.reduce IntOp.andi (kInRange lab) (constantI S_ 1 1#1) reducesTo_S8192x1_S8192_d1 h_S_)

/-- The gathered centre rows, a NaN where the mask is 0. -/
def kGath (lab : (⟨S8192, .i32⟩ : BufTy).Contents (Elt Ideal)) (x2 : (⟨S10000x256, .f32⟩ : BufTy).Contents (Elt Ideal)) :
    (⟨S8192x256, .f32⟩ : BufTy).Contents (Elt Ideal) :=
  select (kMask lab) (Host.gather gather_S10000x256_S8192x1_S8192x256_1_0_n_n_0_1_1256 x2 (kIdx lab))
    (broadcastInDim S8192x256 ![] bcast_S_S8192x256 (constant (F := Ideal) S_ .f32 0x7FC00000#32))

/-- The likelihood as the kernel's program computes it: the sum of the squared differences over 16384. -/
def kTail (x0 : (⟨S8192x256, .f32⟩ : BufTy).Contents (Elt Ideal)) (lab : (⟨S8192, .i32⟩ : BufTy).Contents (Elt Ideal))
    (x2 : (⟨S10000x256, .f32⟩ : BufTy).Contents (Elt Ideal)) : (⟨S_, .f32⟩ : BufTy).Contents (Elt Ideal) :=
  Host.divf (Host.reduceAdd (mulf (subf x0 (kGath lab x2)) (subf x0 (kGath lab x2))) (constant (F := Ideal) S_ .f32 0x00000000#32)
    reducesTo_S8192x256_S_d0_1 h_S_) (constant (F := Ideal) S_ .f32 0x46800000#32)

section InRange

variable (lab : (⟨S8192, .i32⟩ : BufTy).Contents (Elt Ideal))
  (hl : ∀ i : S8192.Idx, BitVec.sle 0#32 ((lab : S8192.Idx → BitVec 32) i) = true
      ∧ BitVec.slt ((lab : S8192.Idx → BitVec 32) i) 10000#32 = true)

include hl

/-- With every label in range the wrap changes nothing. -/
theorem kWrap_apply (k : S8192.Idx) : kWrap lab k = lab k := wrap_eq (lab k) (hl k).1

/-- Every entry of the index column passes the range test. -/
theorem kInRange_apply (i : S8192x1.Idx) : kInRange lab i = 1#1 := by
  obtain ⟨k, hk⟩ := bcast_reads ![0] bcast_S8192_S8192x1_0 (kWrap lab) i
  have e : kIdx lab i = lab k := hk.trans (kWrap_apply lab hl k)
  show IntOp.andi (IntOp.cmpi .sge (kIdx lab i) 0#32) (IntOp.cmpi .sle (kIdx lab i) 9999#32) = 1#1
  rw [e, sge_zero _ (hl k).1, sle_max _ (hl k).2]
  decide

/-- So the mask is 1 everywhere. -/
theorem kMask_apply (i : S8192x256.Idx) : kMask lab i = 1#1 := by
  obtain ⟨j, hj⟩ := bcast_reads ![0] bcast_S8192_S8192x256_0
    (Host.reduce IntOp.andi (kInRange lab) (constantI S_ 1 1#1) reducesTo_S8192x1_S8192_d1 h_S_) i
  refine hj.trans ?_
  rw [Host.reduce_eq_foldl]
  exact foldl_andi_ones (kInRange lab) _ fun n _ => kInRange_apply lab hl n

/-- and the masked gather is the gather. -/
theorem kGath_eq (x2 : (⟨S10000x256, .f32⟩ : BufTy).Contents (Elt Ideal)) :
    kGath lab x2 = Host.gather gather_S10000x256_S8192x1_S8192x256_1_0_n_n_0_1_1256 x2 (kIdx lab) :=
  funext fun i => by rw [kGath, select_apply, kMask_apply lab hl i, select_one]

/-- The kernel's likelihood is the reference's: the same operations on the same gathered rows. -/
theorem kTail_eq (x0 : (⟨S8192x256, .f32⟩ : BufTy).Contents (Elt Ideal)) (x2 : (⟨S10000x256, .f32⟩ : BufTy).Contents (Elt Ideal)) :
    kTail x0 lab x2 = Cert.ReferenceIdeal.Read.val_main_v33 (F := Ideal) x0 lab x2 := by
  unfold kTail
  rw [kGath_eq lab hl x2]
  rfl

end InRange

/-! ## The tail read off the frame -/

/-- After the host operations that follow the region, the likelihood buffer holds the reference's term of the
    arguments (whatever the pipeline's proof data: those operations read the arguments only). -/
theorem tail_v18 (dats : (p : Fin 1) → (c : Dev nD) → Dat τ (Elt Ideal) Unit ℕ (UR sig nD τ) ℕ (cfgs p) c) (c : Dev nD)
    (hl : ∀ i : S8192.Idx, BitVec.sle 0#32 ((m ((c : Thread nD τ).loc main_arg1) : S8192.Idx → BitVec 32) i) = true
      ∧ BitVec.slt ((m ((c : Thread nD τ).loc main_arg1) : S8192.Idx → BitVec 32) i) 10000#32 = true) :
    (Pipeline.afterTail₀ cfgs dats 0 (V0 m) [hostOps1, hostOps1_1] c main_v18 : S_.Idx → EReal)
      = Cert.ReferenceIdeal.Read.val_main_v33 (F := Ideal) (m ((c : Thread nD τ).loc main_arg0))
          (m ((c : Thread nD τ).loc main_arg1)) (m ((c : Thread nD τ).loc main_arg2)) := by
  -- the three arguments are no array of the pipeline and no host operation writes them
  have hA0 : Pipeline.withArrays (cfgs 0).spec c (V0 m c) (fun w => (dats 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans
      (V_main_arg0 m c)
  have hA1 : Pipeline.withArrays (cfgs 0).spec c (V0 m c) (fun w => (dats 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  have hA2 : Pipeline.withArrays (cfgs 0).spec c (V0 m c) (fun w => (dats 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  unfold Pipeline.afterTail₀
  simp only [hostOps1, hostOps1_1, List.flatten_cons, List.flatten_nil, List.append_nil, List.cons_append, List.nil_append]
  after_results_simp
  rw [hA0, hA1, hA2]
  exact kTail_eq (m ((c : Thread nD τ).loc main_arg1)) hl (m ((c : Thread nD τ).loc main_arg0)) (m ((c : Thread nD τ).loc main_arg2))

end Cert.KernelIdeal.Hand

end
-- ==== Proof.PreFacts.lean ====
/-
  What the precondition says of the argument arrays, entry by entry: every feature and every centre entry is a
  real number, and every label lies in 0 … 9999.
-/
import proofs.«431028_j76897094468407_3_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.Lgm

open Idealize.ShloMosaic Idealize.ShloMosaic.ValueIdx

/-- An extended real whose absolute value max x (-x) lies strictly below +∞ is a real number: the pattern
    0x7F800000 denotes +∞, and at x = +∞ or x = -∞ the absolute value is +∞ itself, which is not below +∞. -/
private theorem real_of_abs_lt_top (x : Ideal .f32)
    (h : FloatOps.cmpf (F := Ideal) .olt (FloatOps.hostAbsf x) (FloatOps.ofBits (F := Ideal) .f32 0x7F800000#32) = 1#1) :
    ∃ r : ℝ, x = (r : EReal) := by
  have htop : Ideal.ofBits .f32 0x7F800000#32 = (⊤ : EReal) := by simp [Ideal.ofBits, Ideal.ieee]
  change BitVec.ofBool (decide (max x (-x) < Ideal.ofBits .f32 0x7F800000#32)) = 1#1 at h
  rw [htop] at h
  induction x using EReal.rec with
  | bot => simp at h
  | coe r => exact ⟨r, rfl⟩
  | top => simp at h

/-- The precondition is the conjunction of three "for all entries" statements: |x0 i| < +∞, |x2 i| < +∞, and
    0 ≤ x1 i < 10000 (signed). Each conjunct that holds as a whole holds at every entry; the first two say the
    entry is a real number, the third is the pair of signed word comparisons. -/
theorem pre_facts [Cert.Pre_finite_inputs.Facts] (x0 : FVec Ideal Cert.Pre_finite_inputs.S8192x256 .f32) (x1 : IVec Cert.Pre_finite_inputs.S8192 32) (x2 : FVec Ideal Cert.Pre_finite_inputs.S10000x256 .f32)
    (h : Cert.Pre_finite_inputs.fn (F := Ideal) x0 x1 x2 = fun _ => 1#1) :
    (∀ i, ∃ r : ℝ, x0 i = (r : EReal)) ∧ (∀ i, ∃ r : ℝ, x2 i = (r : EReal))
      ∧ (∀ i, BitVec.sle 0#32 (x1 i) = true ∧ BitVec.slt (x1 i) 10000#32 = true) := by
  -- the scalar shape has exactly one index
  haveI : Subsingleton Cert.Pre_finite_inputs.S_.Idx := ⟨fun a b => funext fun d => d.elim0⟩
  have h0 := congrFun h ValueIdx.ix0
  dsimp only [Cert.Pre_finite_inputs.fn] at h0
  -- (A ∧ B) ∧ C, each a conjunction over all entries of one array
  obtain ⟨h01, hC⟩ := IntOp.andi_eq_one.1 h0
  obtain ⟨hA, hB⟩ := IntOp.andi_eq_one.1 h01
  refine ⟨fun i => ?_, fun i => ?_, fun i => ?_⟩
  · exact real_of_abs_lt_top _ (Host.reduce_andi_all _ _ _ _ _ hA i)
  · exact real_of_abs_lt_top _ (Host.reduce_andi_all _ _ _ _ _ hB i)
  · obtain ⟨hge, hlt⟩ := IntOp.andi_eq_one.1 (Host.reduce_andi_all _ _ _ _ _ hC i)
    -- the scalars 0 and 10000 broadcast along the label vector read as themselves at entry i
    change IntOp.cmpi .sge (x1 i) 0#32 = 1#1 at hge
    change IntOp.cmpi .slt (x1 i) 10000#32 = 1#1 at hlt
    exact ⟨(StableHlo.Predicate.ofBool_eq_one_iff _).1 hge, (StableHlo.Predicate.ofBool_eq_one_iff _).1 hlt⟩

end Cert.Lgm

end
-- ==== Proof.RefRead.lean ====
/-
  The reference's first two results as the specification's arrays: on real entries
    −½ · ((fsq b + csq k) − 2 · cross b k) = cross b k + (−½)·fsq b + (−½)·csq k,
  and the one-hot factor (onehot · α + 1) is 1 + α in the label's column and 1 elsewhere.
-/
import proofs.«431028_j76897094468407_3_alg».proof.Proof.Gen.ReferenceIdeal.Run
import proofs.«431028_j76897094468407_3_alg».proof.Proof.Gen.ReferenceIdeal.Read
import proofs.«431028_j76897094468407_3_alg».proof.Proof.Spec

noncomputable section

namespace Cert.ReferenceIdeal.RefValue

open Cert.ReferenceIdeal Cert.ReferenceIdeal.Gen
open Idealize.ShloMosaic Idealize.ShloMosaic.ValueIdx

open Cert.ReferenceIdeal.Read

/-! ### The reference's intermediate arrays at an index -/

/-- The row sum of squares of the features at row `b`. -/
theorem v1_at (x0 : S8192x256.Idx → EReal) (b : Fin 8192) :
    val_main_v1 (F := Ideal) x0 (ix1 b) = Cert.Lgm.fsq x0 b := by
  rw [val_main_v1_apply, val_main_cst_apply, Ideal.ofBits_def, Ideal.ofBits_zero_f32, zero_add]
  unfold Cert.Lgm.fsq
  refine Finset.sum_congr rfl fun d _ => ?_
  rw [val_main_v0_apply, Ideal.mulf_def]
  have e : idx_main_v1 (ix1 b) d = ix2 b d :=
    funext fun a => Fin.ext (by match a with | ⟨0, _⟩ => rfl | ⟨1, _⟩ => rfl)
  rw [e]

/-- The row sum of squares of the centres at row `k`. -/
theorem v4_at (x2 : S10000x256.Idx → EReal) (k : Fin 10000) :
    val_main_v4 (F := Ideal) x2 (ix1 k) = Cert.Lgm.csq x2 k := by
  rw [val_main_v4_apply, val_main_cst_0_apply, Ideal.ofBits_def, Ideal.ofBits_zero_f32, zero_add]
  unfold Cert.Lgm.csq
  refine Finset.sum_congr rfl fun d _ => ?_
  rw [val_main_v3_apply, Ideal.mulf_def]
  have e : idx_main_v4 (ix1 k) d = ix2 k d :=
    funext fun a => Fin.ext (by match a with | ⟨0, _⟩ => rfl | ⟨1, _⟩ => rfl)
  rw [e]

/-- The matrix product at `(b, k)` is the inner product of feature row `b` with centre row `k`. -/
theorem v6_at (x0 : S8192x256.Idx → EReal) (x2 : S10000x256.Idx → EReal) (b : Fin 8192) (k : Fin 10000) :
    val_main_v6 (F := Ideal) x0 x2 (ix2 b k) = Cert.Lgm.cross x0 x2 b k := by
  rw [val_main_v6_apply]
  unfold Cert.Lgm.cross
  refine Finset.sum_congr rfl fun d _ => ?_
  have el : lidx_main_v6 (ix2 b k) d = ix2 b d :=
    funext fun a => Fin.ext (by match a with | ⟨0, _⟩ => rfl | ⟨1, _⟩ => rfl)
  have er : ridx_main_v6 (ix2 b k) d = ix2 k d :=
    funext fun a => Fin.ext (by match a with | ⟨0, _⟩ => rfl | ⟨1, _⟩ => rfl)
  rw [el, er]

/-- The squared distance at `(b, k)`: (fsq b + csq k) − 2 · cross b k. -/
theorem v12_at (x0 : S8192x256.Idx → EReal) (x2 : S10000x256.Idx → EReal) (b : Fin 8192) (k : Fin 10000) :
    val_main_v12 (F := Ideal) x0 x2 (ix2 b k)
      = (Cert.Lgm.fsq x0 b + Cert.Lgm.csq x2 k) - Ideal.ofBits .f32 0x40000000#32 * Cert.Lgm.cross x0 x2 b k := by
  rw [val_main_v12_apply, val_main_v9_apply, val_main_v11_apply, val_main_v7_apply, val_main_v8_apply,
    val_main_v2_apply, val_main_v5_apply, val_main_v10_apply, val_main_cst_1_apply, v6_at,
    Ideal.subf_def, Ideal.addf_def, Ideal.mulf_def, Ideal.ofBits_def]
  have e7 : idx_main_v2 (idx_main_v7 (ix2 b k)) = ix1 b :=
    funext fun a => Fin.ext (by match a with | ⟨0, _⟩ => rfl)
  have e8 : idx_main_v5 (idx_main_v8 (ix2 b k)) = ix1 k :=
    funext fun a => Fin.ext (by match a with | ⟨0, _⟩ => rfl)
  rw [e7, e8, v1_at, v4_at]

/-! ### The literal words as reals -/

theorem ofBits_negHalf : Ideal.ofBits .f32 0xBF000000#32 = ((-1/2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_alpha : Ideal.ofBits .f32 0x3DCCCCCD#32 = ((13421773 / 134217728 : ℝ) : EReal) := by
  simp [Ideal.ofBits, Ideal.ieee, -EReal.coe_mul]; norm_num

/-! ### Sums of real entries are real -/

/-- A finite sum of reals, read in the extended reals, is the real sum. -/
theorem coe_sum {ι : Type*} (s : Finset ι) (f : ι → ℝ) :
    ∑ d ∈ s, ((f d : ℝ) : EReal) = ((∑ d ∈ s, f d : ℝ) : EReal) := by
  classical
  induction s using Finset.induction_on with
  | empty => simp
  | insert a s ha ih => rw [Finset.sum_insert ha, Finset.sum_insert ha, ih, EReal.coe_add]

/-- A finite sum of products of real entries is real. -/
theorem sum_mul_real {n : Nat} (u v : Fin n → EReal) (hu : ∀ d, ∃ r : ℝ, u d = (r : EReal))
    (hv : ∀ d, ∃ r : ℝ, v d = (r : EReal)) : ∃ r : ℝ, ∑ d, u d * v d = (r : EReal) := by
  choose f hf using hu
  choose g hg using hv
  refine ⟨∑ d, f d * g d, ?_⟩
  rw [← coe_sum]
  refine Finset.sum_congr rfl fun d _ => ?_
  rw [hf, hg, EReal.coe_mul]

theorem fsq_real (x0 : S8192x256.Idx → EReal) (h0 : ∀ i, ∃ r : ℝ, x0 i = (r : EReal)) (b : Fin 8192) :
    ∃ r : ℝ, Cert.Lgm.fsq x0 b = (r : EReal) :=
  sum_mul_real (fun d => x0 (ix2 b d)) (fun d => x0 (ix2 b d)) (fun d => h0 _) (fun d => h0 _)

theorem csq_real (x2 : S10000x256.Idx → EReal) (h2 : ∀ i, ∃ r : ℝ, x2 i = (r : EReal)) (k : Fin 10000) :
    ∃ r : ℝ, Cert.Lgm.csq x2 k = (r : EReal) :=
  sum_mul_real (fun d => x2 (ix2 k d)) (fun d => x2 (ix2 k d)) (fun d => h2 _) (fun d => h2 _)

theorem cross_real (x0 : S8192x256.Idx → EReal) (x2 : S10000x256.Idx → EReal)
    (h0 : ∀ i, ∃ r : ℝ, x0 i = (r : EReal)) (h2 : ∀ i, ∃ r : ℝ, x2 i = (r : EReal)) (b : Fin 8192) (k : Fin 10000) :
    ∃ r : ℝ, Cert.Lgm.cross x0 x2 b k = (r : EReal) :=
  sum_mul_real (fun d => x0 (ix2 b d)) (fun d => x2 (ix2 k d)) (fun d => h0 _) (fun d => h2 _)

/-! ### The algebra on real entries -/

/-- −½ · ((F + C) − 2·X) = X + (−½)·F + (−½)·C. -/
theorem alg_logits (F C X : ℝ) :
    ((-1/2 : ℝ) : EReal) * (((F : EReal) + (C : EReal)) - ((2 : ℝ) : EReal) * (X : EReal))
      = (X : EReal) + ((-1/2 : ℝ) : EReal) * (F : EReal) + ((-1/2 : ℝ) : EReal) * (C : EReal) := by
  simp only [← EReal.coe_mul, ← EReal.coe_add, ← EReal.coe_sub]
  exact congrArg _ (by ring)

/-- In the label's column the factor is 1·α + 1 = 1 + α. -/
theorem alg_hit (F C X : ℝ) :
    ((-1/2 : ℝ) : EReal) * ((((F : EReal) + (C : EReal)) - ((2 : ℝ) : EReal) * (X : EReal))
        * (((1 : ℝ) : EReal) * ((13421773 / 134217728 : ℝ) : EReal) + ((1 : ℝ) : EReal)))
      = ((X : EReal) + ((-1/2 : ℝ) : EReal) * (F : EReal) + ((-1/2 : ℝ) : EReal) * (C : EReal))
          * ((147639501 / 134217728 : ℝ) : EReal) := by
  simp only [← EReal.coe_mul, ← EReal.coe_add, ← EReal.coe_sub]
  exact congrArg _ (by ring)

/-- Off the label's column the factor is 0·α + 1 = 1. -/
theorem alg_miss (F C X : ℝ) :
    ((-1/2 : ℝ) : EReal) * ((((F : EReal) + (C : EReal)) - ((2 : ℝ) : EReal) * (X : EReal))
        * (((0 : ℝ) : EReal) * ((13421773 / 134217728 : ℝ) : EReal) + ((1 : ℝ) : EReal)))
      = (X : EReal) + ((-1/2 : ℝ) : EReal) * (F : EReal) + ((-1/2 : ℝ) : EReal) * (C : EReal) := by
  simp only [← EReal.coe_mul, ← EReal.coe_add, ← EReal.coe_sub]
  exact congrArg _ (by ring)

/-! ### The one-hot factor -/

/-- The one-hot entry at `(b, k)`: 1 in the label's column, 0 elsewhere. -/
theorem v13_at (x1 : S8192.Idx → BitVec 32) (b : Fin 8192) (k : Fin 10000) :
    val_main_v13 (F := Ideal) x1 (ix2 b k)
      = if x1 (ix1 b) = BitVec.ofNat 32 k.val then ((1 : ℝ) : EReal) else ((0 : ℝ) : EReal) := by
  rw [val_main_v13_apply, val_main_call0_v4_apply, val_main_call0_v2_apply, val_main_call0_v0_apply,
    val_main_call0_v3_apply, val_main_call0_v1_apply]
  have e0 : idx_main_call0_v0 (idx_main_call0_v2 (ix2 b k)) = ix1 b :=
    funext fun a => Fin.ext (by match a with | ⟨0, _⟩ => rfl)
  have e1 : ((idx_main_call0_v3 (ix2 b k)) 1).val = k.val := rfl
  rw [e0, e1]
  show (((IntOp.cmpi .eq (x1 (ix1 b)) (BitVec.ofNat 32 k.val)).toNat : ℝ) : EReal) = _
  by_cases h : x1 (ix1 b) = BitVec.ofNat 32 k.val
  · rw [if_pos h, h]; simp [IntOp.cmpi]
  · rw [if_neg h]; simp [IntOp.cmpi, h]

/-- The margin factor at `(b, k)`: onehot · α + 1. -/
theorem v17_at (x1 : S8192.Idx → BitVec 32) (b : Fin 8192) (k : Fin 10000) :
    val_main_v17 (F := Ideal) x1 (ix2 b k)
      = (if x1 (ix1 b) = BitVec.ofNat 32 k.val then ((1 : ℝ) : EReal) else ((0 : ℝ) : EReal))
          * ((13421773 / 134217728 : ℝ) : EReal) + ((1 : ℝ) : EReal) := by
  rw [val_main_v17_apply, val_main_v15_apply, val_main_v14_apply, val_main_cst_2_apply, val_main_v16_apply,
    val_main_cst_3_apply, v13_at, Ideal.addf_def, Ideal.mulf_def, Ideal.ofBits_def, Ideal.ofBits_def,
    ofBits_alpha, ofBits_one]

/-! ### The two results -/

theorem ref_logits (x0 : S8192x256.Idx → EReal) (x2 : S10000x256.Idx → EReal)
    (h0 : ∀ i, ∃ r : ℝ, x0 i = (r : EReal)) (h2 : ∀ i, ∃ r : ℝ, x2 i = (r : EReal)) :
    Cert.ReferenceIdeal.Read.val_main_v22 (F := Ideal) x0 x2 = Cert.Lgm.logits x0 x2 := by
  funext i
  obtain ⟨b, k, rfl⟩ : ∃ (b : Fin 8192) (k : Fin 10000), i = ix2 b k := ⟨i 0, i 1, eq_ix2 i⟩
  rw [Cert.Lgm.logits_ix2, val_main_v22_apply, val_main_v21_apply, val_main_cst_5_apply, v12_at,
    Ideal.mulf_def, Ideal.ofBits_def]
  obtain ⟨F, hF⟩ := fsq_real x0 h0 b
  obtain ⟨C, hC⟩ := csq_real x2 h2 k
  obtain ⟨X, hX⟩ := cross_real x0 x2 h0 h2 b k
  unfold Cert.Lgm.logitsAt
  rw [hF, hC, hX, Cert.Lgm.negHalf, ofBits_negHalf, ofBits_two]
  exact alg_logits F C X

theorem ref_margin (x0 : S8192x256.Idx → EReal) (x1 : S8192.Idx → BitVec 32) (x2 : S10000x256.Idx → EReal)
    (h0 : ∀ i, ∃ r : ℝ, x0 i = (r : EReal)) (h2 : ∀ i, ∃ r : ℝ, x2 i = (r : EReal)) :
    Cert.ReferenceIdeal.Read.val_main_v20 (F := Ideal) x0 x1 x2 = Cert.Lgm.margin x0 x1 x2 := by
  funext i
  obtain ⟨b, k, rfl⟩ : ∃ (b : Fin 8192) (k : Fin 10000), i = ix2 b k := ⟨i 0, i 1, eq_ix2 i⟩
  rw [Cert.Lgm.margin_ix2, val_main_v20_apply, val_main_v19_apply, val_main_cst_4_apply, val_main_v18_apply,
    v12_at, v17_at, Ideal.mulf_def, Ideal.mulf_def, Ideal.ofBits_def]
  obtain ⟨F, hF⟩ := fsq_real x0 h0 b
  obtain ⟨C, hC⟩ := csq_real x2 h2 k
  obtain ⟨X, hX⟩ := cross_real x0 x2 h0 h2 b k
  unfold Cert.Lgm.marginAt Cert.Lgm.logitsAt
  rw [hF, hC, hX, Cert.Lgm.negHalf, Cert.Lgm.oneAlpha, ofBits_negHalf, ofBits_two]
  by_cases h : x1 (ix1 b) = BitVec.ofNat 32 k.val
  · rw [if_pos h, if_pos h]; exact alg_hit F C X
  · rw [if_neg h, if_neg h]; exact alg_miss F C X

end Cert.ReferenceIdeal.RefValue

end
-- ==== Proof.lean ====
/-
  The three results of the kernel's program and of the reference are the same functions of the arguments.

  Both programs compute, for feature rows f b and centre rows c k,
    logits b k = −½ · ‖f b − c k‖²  and  margin b k = logits b k · (1 + α) in the column of row b's label,
  and the mean over rows of ½ · ‖f b − c (label b)‖². The kernel computes a logit in product form,
  f b · c k − ½‖f b‖² − ½‖c k‖², on 1024 × 1280 blocks, the last block column overhanging the 10000 centres; the
  reference computes −½ · ((‖f b‖² + ‖c k‖²) − 2 f b · c k) on the whole arrays. On real entries the two are
  one number (distributivity needs finiteness, which the precondition gives), and the kernel's factor 1 + α is
  the reference's (one-hot · α + 1) in the label's column, α the binary fraction the reference's word for 0.1
  encodes. The third result is computed by the same host operations in both programs once every label is in range.

  The modules: Spec (the three results as functions of the arguments), Body / Data / Run (the kernel body's
  triple, the pipeline's proof data, the run on the extended reals) and KBody / KData / KRun (the same for
  the program as printed, outputs unread), PayloadIdx and HostPre (the body's arithmetic and the host prefix at
  an index), Blocks (from blocks to arrays), Tail (the third result), PreFacts (the precondition entry by
  entry), RefRead (the reference's arrays).
-/
import proofs.«431028_j76897094468407_3_alg».proof.Defs
import proofs.«431028_j76897094468407_3_alg».proof.Proof.Gen.Kernel
import proofs.«431028_j76897094468407_3_alg».proof.Proof.Gen.KernelIdeal
import proofs.«431028_j76897094468407_3_alg».proof.Proof.Gen.ReferenceIdeal
import proofs.«431028_j76897094468407_3_alg».proof.Proof.Gen.Pre_finite_inputs
import proofs.«431028_j76897094468407_3_alg».proof.Proof.Gen.ReferenceIdeal.Run
import proofs.«431028_j76897094468407_3_alg».proof.Proof.Gen.ReferenceIdeal.Read
import proofs.«431028_j76897094468407_3_alg».proof.Proof.Run
import proofs.«431028_j76897094468407_3_alg».proof.Proof.KRun
import proofs.«431028_j76897094468407_3_alg».proof.Proof.Blocks
import proofs.«431028_j76897094468407_3_alg».proof.Proof.Tail
import proofs.«431028_j76897094468407_3_alg».proof.Proof.PreFacts
import proofs.«431028_j76897094468407_3_alg».proof.Proof.RefRead
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2.2) (Cert.ReferenceIdeal.Value.run (F := Ideal) m ρ)

/-- The one named constant: the kernel's word for 1 + α denotes 147639501 / 2²⁷ on the extended reals. -/
theorem preserves : Cert.preserves_Kernel_KernelIdeal :=
  IdealRules.named_const.statement Cert.KernelIdeal.κ "one_plus_alpha" .f32 0x3F8CCCCD#32 ((147639501 / 134217728 : ℝ) : EReal) rfl

/-- From memories agreeing on the arguments both programs end with the specification's three results. -/
theorem algebraic : Cert.algebraic_KernelIdeal_ReferenceIdeal := by
  intro m ρ m' ρ' hpre hagree
  have hf := fun c => Cert.Lgm.pre_facts _ _ _ (hpre c)
  refine ⟨fun c => Cert.Lgm.logits (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    fun c => Cert.Lgm.margin (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.ReferenceIdeal.Read.val_main_v33 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ?_) (Cert.KernelIdeal.Hand.run_main m ρ)
    exact ⟨((h c).1 5).trans (Cert.KernelIdeal.Hand.final5 m c), ((h c).1 6).trans (Cert.KernelIdeal.Hand.final6 m c),
      ((h c).2 Cert.KernelIdeal.main_v18 (Pipeline.mem_restRefs_of Cert.KernelIdeal.main_v18 (by decide) (by decide))).trans
        (Cert.KernelIdeal.Hand.tail_v18 m (Cert.KernelIdeal.Hand.dats m) c (hf c).2.2),
      ((h c).2 Cert.KernelIdeal.main_arg0 (Pipeline.mem_restRefs_of Cert.KernelIdeal.main_arg0 (by decide) (by decide))).trans
        (Cert.KernelIdeal.Gen.W_main_arg0 m (Cert.KernelIdeal.Hand.dats m) c),
      ((h c).2 Cert.KernelIdeal.main_arg1 (Pipeline.mem_restRefs_of Cert.KernelIdeal.main_arg1 (by decide) (by decide))).trans
        (Cert.KernelIdeal.Gen.W_main_arg1 m (Cert.KernelIdeal.Hand.dats m) c),
      ((h c).2 Cert.KernelIdeal.main_arg2 (Pipeline.mem_restRefs_of Cert.KernelIdeal.main_arg2 (by decide) (by decide))).trans
        (Cert.KernelIdeal.Gen.W_main_arg2 m (Cert.KernelIdeal.Hand.dats m) c)⟩
  · refine (θ_run Cert.ReferenceIdeal.defs _ _).mono (fun r h c => ?_) (Cert.ReferenceIdeal.Value.run (F := Ideal) m' ρ')
    obtain ⟨h22, h20, h33, ha0, ha1, ha2⟩ := h c
    refine ⟨?_, ?_, ?_, ha0, ha1, ha2⟩
    · rw [h22, Cert.ReferenceIdeal.Read.val_main_v22_eq, (hagree c).1, (hagree c).2.2]
      exact Cert.ReferenceIdeal.RefValue.ref_logits _ _ (hf c).1 (hf c).2.1
    · rw [h20, Cert.ReferenceIdeal.Read.val_main_v20_eq, (hagree c).1, (hagree c).2.1, (hagree c).2.2]
      exact Cert.ReferenceIdeal.RefValue.ref_margin _ _ _ (hf c).1 (hf c).2.1
    · rw [h33, Cert.ReferenceIdeal.Read.val_main_v33_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
